-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096x4096 32) (main_v13 : IVec S_ 1) (main_v15 : IVec S4096x4096 1) (main_c_5 : IVec S_ 32) : IVec S_ 1 :=
  let main_v16 : IVec S4096x4096 32 := broadcastInDim S4096x4096 ![] bcast_S_S4096x4096 main_c_5
  let main_v17 : IVec S4096x4096 1 := cmpi .eq main_arg2 main_v16
  let main_v18 : IVec S4096x4096 1 := ori main_v15 main_v17
  let main_c_6 : IVec S_ 1 := constantI S_ 1 1#1
  let main_v19 : IVec S_ 1 := (fun x v => Host.reduce IntOp.andi x v reducesTo_S4096x4096_S_d0_1 h_S_) main_v18 main_c_6
  let main_v20 : IVec S_ 1 := andi main_v13 main_v19
  main_v20

def fn {F : FTy → Type} [FloatOps F] (main_arg0 : FVec F S8x2048x4096 .f32) (main_arg1 : FVec F S4096x4096 .f32) (main_arg2 : IVec S4096x4096 32) (main_arg3 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096x4096 32 := broadcastInDim S4096x4096 ![] bcast_S_S4096x4096 main_c_4
  let main_v15 : IVec S4096x4096 1 := cmpi .eq main_arg2 main_v14
  let main_c_5 : IVec S_ 32 := constantI S_ 32 1#32
  fn_part1 (F := F) main_arg2 main_v13 main_v15 main_c_5
-- ==== Kernel.lean ====
abbrev S8x2048x4096 : Shape := ⟨3, ![8, 2048, 4096]⟩
abbrev S4096x4096 : Shape := ⟨2, ![4096, 4096]⟩
abbrev S4096 : Shape := ⟨1, ![4096]⟩
abbrev S4096x1 : Shape := ⟨2, ![4096, 1]⟩
abbrev S256x4096 : Shape := ⟨2, ![256, 4096]⟩
abbrev S256x1 : Shape := ⟨2, ![256, 1]⟩
abbrev S16384x4096 : Shape := ⟨2, ![16384, 4096]⟩
abbrev S1024x2048 : Shape := ⟨2, ![1024, 2048]⟩
abbrev S1024x1024 : Shape := ⟨2, ![1024, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .i32⟩
  | .hbm, ⟨3, _⟩ => ⟨S4096, .f32⟩
  | .hbm, ⟨4, _⟩ => ⟨S4096x1, .f32⟩
  | .hbm, ⟨5, _⟩ => ⟨S4096x4096, .bf16⟩
  | .hbm, ⟨6, _⟩ => ⟨S16384x4096, .f32⟩
  | .hbm, ⟨7, _⟩ => ⟨S16384x4096, .f32⟩
  | .hbm, ⟨8, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S256x4096, .bf16⟩
  | .local _ .vmem, ⟨7, _⟩ => ⟨S256x4096, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 4, 2], ![false, false, false]⟩

def k1_cond2 (i : grid1.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bcast_S4096_S4096x1_0 : S4096.BroadcastsInDim S4096x1 (![0] : Fin 1 → Fin S4096x1.rank)
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S8x2048x4096_S16384x4096 : S8x2048x4096.ShapeCasts S16384x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S16384x4096_S8x2048x4096 : S16384x4096.ShapeCasts S8x2048x4096
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x4096.size a
  hwx1_0 : ∀ i : grid1.Coords, EltTy.bits .f32 = 32 ∨ (Rect.block (s := S16384x4096) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x4096.size a
  hwx1_1 : ∀ i : grid1.Coords, EltTy.bits .bf16 = 32 ∨ (Rect.block (s := S4096x4096) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x4096.size a
  hwx1_2 : ∀ i : grid1.Coords, EltTy.bits .f32 = 32 ∨ (Rect.block (s := S16384x4096) S1024x1024.size (cc1_transform_2 i) (hinb1_2 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .i32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .f32⟩
  | .hbm, ⟨11, _⟩ => ⟨S4096x1, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Kernel.QuantRegion.lean ====
/-
  The first kernel region: the dequantisation pass. Its grid has 16 points; point `t` reads rows `256·t … 256·t + 255`
  of the base weights and of the sign words (all 4096 columns) and the same rows of the scale column, and writes the
  same rows of the bf16 weight array. The body is one whole-block store of one pure function of its three loads, so
  after the body the output's staging buffer holds that function of the three input blocks (`quantOut`); the three
  input buffers are left as found. Nothing is carried between points: the region's invariant is the scoped rest and
  the generator register, untouched.
-/
import proofs.«126354_j40896678593009_1_alg».proof.Proof.Gen.Kernel.Launch
import proofs.«126354_j40896678593009_1_alg».proof.Proof.Gen.Kernel.Skeleton
import proofs.«126354_j40896678593009_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole [256, 4096] block and the whole [256, 1] column block, as the body's accesses name them. -/
abbrev rQ : Rect S256x4096 := Rect.unit (s := S256x4096) ![0, 0] S256x4096.size inb_S256x4096_S256x4096_0_0
abbrev rC : Rect S256x1 := Rect.unit (s := S256x1) ![0, 0] S256x1.size inb_S256x1_S256x1_0_0

/-- What the body leaves in the output's staging buffer: its one store, of the payload of the three loads. -/
def quantOut (xb : Vec F S256x4096 .f32) (xs : Vec F S256x4096 .i32) (xc : Vec F S256x1 .f32) : Vec F S256x4096 .bf16 :=
  View.canon [⟨rQ, k0_pay1 (View.ld xs rQ) (View.ld xb rQ) (View.ld xc rC)⟩]

/-- The one store is of the whole block, so it covers the buffer. -/
theorem quantCover (p0 : Vec F S256x4096 .bf16) (y : S256x4096.Idx) :
    ∃ pc ∈ ([⟨rQ, p0⟩] : List (View.Piece (Elt F) S256x4096 .bf16)), y ∈ pc.1.set :=
  View.cover_of_tiled [⟨rQ, p0⟩] S256x4096.size (by rfl) y

set_option maxHeartbeats 1000000 in
/-- The body on whole staging memrefs: the three inputs at read contents, the output at anything; it runs to the
    continuation holding the inputs as they were and the output at `quantOut` of them. -/
theorem sound_quant (c : Dev nD) (E : Set ℕ) (i : grid0.Coords)
    (arg1 : Memref sig .tc .vmem S256x4096 .f32) (harg1 : arg1.IsWhole) (arg2 : Memref sig .tc .vmem S256x4096 .i32) (harg2 : arg2.IsWhole)
    (arg3 : Memref sig .tc .vmem S256x1 .f32) (harg3 : arg3.IsWhole) (arg4 : Memref sig .tc .vmem S256x4096 .bf16) (harg4 : arg4.IsWhole)
    (xb : Vec F S256x4096 .f32) (xs : Vec F S256x4096 .i32) (xc : Vec F S256x1 .f32) (K : PUnit → sProp 𝕄) :
    iprop(owns (c : Thread nD τ) arg1 fullShare xb ∗ owns (c : Thread nD τ) arg2 fullShare xs ∗ owns (c : Thread nD τ) arg3 fullShare xc
        ∗ (∃ d, owns (c : Thread nD τ) arg4 fullShare d)
        ∗ (iprop(owns (c : Thread nD τ) arg1 fullShare xb ∗ owns (c : Thread nD τ) arg2 fullShare xs ∗ owns (c : Thread nD τ) arg3 fullShare xc
            ∗ owns (c : Thread nD τ) arg4 fullShare (quantOut xb xs xc)) -∗ K ⟨⟩))
      ⊢ wp frame (wpE (defs₀ (F := F)) Variants.none c none) E (cc0__quantize_kernel i arg1 harg1 arg2 harg2 arg3 harg3 arg4 harg4) K := by
  simp only [cc0__quantize_kernel_eq_skeleton]; unfold cc0__quantize_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (quantCover _)

/-- The region's proof data on core `c`: the arrays as the region finds them; after the body at point `t` each
    input's buffer at its block and the output's at `quantOut` of the three blocks; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => quantOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = quantOut (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_quant` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_quant c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.MatmulRegion.lean ====
/-
  The second kernel region: the matrix product, accumulated over the contracted axis in two halves. Its grid is
  16 × 4 × 2, the last axis `k` running fastest, so the point `t` has `k = t mod 2`. At every point the body reads a
  1024 × 2048 block of the activations and a 1024 × 2048 block of the bf16 weights. At `k = 0` it first clears a
  1024 × 1024 accumulator kept in scratch memory; at both points it adds to the accumulator the product of the two
  blocks along their second axes; at `k = 1` it copies the accumulator to the output block, which the pipeline writes
  back there and only there (at `k = 0` the output's staging buffer is left as found).

  So the accumulator, which lives across points, holds after an even point the product of that point's blocks added
  to zero, and after an odd point that point's product added to what the even point before left (`accAt`). The region's
  invariant carries it: before point `n + 1` the scratch buffer is owned at `accAt n`; before the first point, and for
  the other scoped buffers and the generator register throughout, nothing is said.
-/
import proofs.«126354_j40896678593009_1_alg».proof.Proof.Gen.Kernel.Launch
import proofs.«126354_j40896678593009_1_alg».proof.Proof.Gen.Kernel.Skeleton
import proofs.«126354_j40896678593009_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Whole-block accesses -/

/-- The offset of every access of this body: the block's origin. -/
theorem origin2 : (![0, 0] : Fin 2 → Nat) = fun _ => 0 := funext fun a => by fin_cases a <;> rfl

/-- Every index lies in the rectangle that starts at the origin and has the shape's own extents. -/
theorem mem_whole_rect {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A store of the whole block, made last, leaves its payload: whatever the earlier stores and the prior contents. -/
theorem read_last_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, mem_whole_rect h inb y⟩), View.canon_cons_unit_zero h inb]

/-! ## The body's two branch conditions, over the grid -/

/-- The accumulator is cleared where the last grid coordinate is 0, -/
abbrev condReset (i : grid1.Coords) : Prop := (Scalar.cmpi .ne (Scalar.extui (Scalar.cmpi .eq (BitVec.ofNat 32 (i 2).val) 0#32)) 0#32) = 1#1
/-- and copied out where it is 1. -/
abbrev condEmit (i : grid1.Coords) : Prop := k1_cond2 i = 1#1

/-- The last coordinate runs fastest: it is 0 at the even points, -/
theorem hcondReset : ∀ t : Fin cfg1.N, condReset (grid1.coords t) ↔ t.val % 2 = 0 :=
  (by decide +kernel : ∀ t : Fin grid1.N, condReset (grid1.coords t) ↔ t.val % 2 = 0)
/-- and 1 at the odd ones. -/
theorem hcondEmit : ∀ t : Fin cfg1.N, condEmit (grid1.coords t) ↔ t.val % 2 = 1 :=
  (by decide +kernel : ∀ t : Fin grid1.N, condEmit (grid1.coords t) ↔ t.val % 2 = 1)

/-- The two inputs are stored into nowhere and fetched everywhere: never idle. -/
theorem liveAt1_0 : ∀ t : Fin cfg1.N, cfg1.idle 0 (grid1.coords t) = false :=
  (by decide +kernel : ∀ t : Fin grid1.N, cfg1.idle 0 (grid1.coords t) = false)
theorem liveAt1_1 : ∀ t : Fin cfg1.N, cfg1.idle 1 (grid1.coords t) = false :=
  (by decide +kernel : ∀ t : Fin grid1.N, cfg1.idle 1 (grid1.coords t) = false)
/-- The output is idle, and not written back, at the even points; -/
theorem idleAt1_2 : ∀ t : Fin cfg1.N, t.val % 2 = 0 → cfg1.idle 2 (grid1.coords t) = true :=
  (by decide +kernel : ∀ t : Fin grid1.N, t.val % 2 = 0 → cfg1.idle 2 (grid1.coords t) = true)
theorem noFlush1_2 : ∀ t : Fin cfg1.N, t.val % 2 = 0 → (cfg1.win 2).flush t = false :=
  (by decide +kernel : ∀ t : Fin grid1.N, t.val % 2 = 0 → win1_2.flush t = false)
/-- live at the odd ones. -/
theorem liveAt1_2 : ∀ t : Fin cfg1.N, t.val % 2 = 1 → cfg1.idle 2 (grid1.coords t) = false :=
  (by decide +kernel : ∀ t : Fin grid1.N, t.val % 2 = 1 → cfg1.idle 2 (grid1.coords t) = false)

/-! ## The body's triple, in its two cases -/

set_option maxHeartbeats 1000000 in
/-- WHERE THE ACCUMULATOR IS CLEARED (and not copied out): the inputs and the output's buffer are left as found; the
    accumulator, found at anything, ends at the two blocks' product added to zero. -/
theorem sound_matmul_first (c : Dev nD) (E : Set ℕ) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hc0 : condReset i) (hc1 : ¬condEmit i)
    (xa : Vec F S1024x2048 .f32) (xw : Vec F S1024x2048 .bf16) (xo : Vec F S1024x1024 .f32) (K : PUnit → sProp 𝕄) :
    iprop(owns (c : Thread nD τ) arg3 fullShare xa ∗ owns (c : Thread nD τ) arg4 fullShare xw ∗ owns (c : Thread nD τ) arg5 fullShare xo
        ∗ (∃ d, owns (c : Thread nD τ) arg6 fullShare d)
        ∗ (iprop(owns (c : Thread nD τ) arg3 fullShare xa ∗ owns (c : Thread nD τ) arg4 fullShare xw ∗ owns (c : Thread nD τ) arg5 fullShare xo
            ∗ owns (c : Thread nD τ) arg6 fullShare (k1_pay2 xa xw (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  rw [read_last_whole_store _ _ origin2]
  simp only [View.readAt_eq_ld, View.ld_unit_zero (S := S1024x2048) origin2, View.ld_unit_zero (S := S1024x1024) origin2,
    View.readCov_unit_zero (S := S1024x1024) _ origin2]

set_option maxHeartbeats 1000000 in
/-- WHERE IT IS COPIED OUT (and not cleared): the inputs are left as found; the accumulator, found at `xs`, ends at
    the two blocks' product added to `xs`, and so does the output's buffer, found at anything. -/
theorem sound_matmul_last (c : Dev nD) (E : Set ℕ) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬condReset i) (hc1 : condEmit i)
    (xa : Vec F S1024x2048 .f32) (xw : Vec F S1024x2048 .bf16) (xs : Vec F S1024x1024 .f32) (K : PUnit → sProp 𝕄) :
    iprop(owns (c : Thread nD τ) arg3 fullShare xa ∗ owns (c : Thread nD τ) arg4 fullShare xw ∗ (∃ d, owns (c : Thread nD τ) arg5 fullShare d)
        ∗ owns (c : Thread nD τ) arg6 fullShare xs
        ∗ (iprop(owns (c : Thread nD τ) arg3 fullShare xa ∗ owns (c : Thread nD τ) arg4 fullShare xw
            ∗ owns (c : Thread nD τ) arg5 fullShare (k1_pay2 xa xw xs)
            ∗ owns (c : Thread nD τ) arg6 fullShare (k1_pay2 xa xw xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_last_whole_store _ _ origin2]
    simp only [View.readAt_eq_ld, View.ld_unit_zero (S := S1024x2048) origin2, View.ld_unit_zero (S := S1024x1024) origin2,
    View.readCov_unit_zero (S := S1024x1024) _ origin2]
  iexists _; isplitr
  swap; · iexact H6
  ipureintro
  sl_unfold_run_names
  rw [read_last_whole_store _ _ origin2]
  simp only [View.readAt_eq_ld, View.ld_unit_zero (S := S1024x2048) origin2, View.ld_unit_zero (S := S1024x1024) origin2,
    View.readCov_unit_zero (S := S1024x1024) _ origin2]

/-! ## What the accumulator holds, point by point -/

/-- The scratch accumulator, a whole scoped buffer of the kernel's own. -/
abbrev scM : Memref sig .tc .vmem S1024x1024 .f32 := Memref.whole cc1_scratch0

/-- What the accumulator holds after point `n`: at an even point the point's product added to zero, at an odd one the
    point's product added to what the point before left. -/
def accAt (c : Dev nD) : (n : ℕ) → n < cfg1.N → Vec F S1024x1024 .f32
  | 0, h => k1_pay2 (iblk1 V c 0 ⟨0, h⟩) (iblk1 V c 1 ⟨0, h⟩) (k1_pay1 (F := F))
  | n + 1, h =>
    if (n + 1) % 2 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (accAt c n (Nat.lt_of_succ_lt h))

theorem accAt_even (c : Dev nD) (t : Fin cfg1.N) (h : t.val % 2 = 0) :
    accAt V c t.val t.isLt = k1_pay2 (iblk1 V c 0 t) (iblk1 V c 1 t) (k1_pay1 (F := F)) := by
  obtain ⟨n, hn⟩ := t
  cases n with
  | zero => rfl
  | succ n => exact if_pos h

theorem accAt_odd (c : Dev nD) (t : Fin cfg1.N) (h : t.val % 2 = 1) :
    accAt V c t.val t.isLt
      = k1_pay2 (iblk1 V c 0 t) (iblk1 V c 1 t) (accAt V c (t.val - 1) (Nat.lt_of_le_of_lt (Nat.sub_le _ _) t.isLt)) := by
  obtain ⟨n, hn⟩ := t
  cases n with
  | zero => exact absurd h (by simp)
  | succ n => exact if_neg (by dsimp only at h; omega)

/-! ## The invariant -/

/-- The core's scoped buffers that are neither a staging buffer of this region nor the accumulator: each whole at
    some contents. -/
def scopedOthers (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f))

/-- Before the first point nothing is known of the accumulator; -/
theorem PhiA_split (c : Dev nD) :
    (Pipeline.ΦA spec1 c : sProp 𝕄) ⊢ iprop(scopedOthers (F := F) c ∗ (∃ d, owns (c : Thread nD τ) scM fullShare d) ∗ (∃ r, prngReg c r)) := by
  unfold Pipeline.ΦA scopedOthers; rw [scopedRest1_eq]
  iintro ⟨⟨H0, H1, H2, H3, H4, H5, H6, H7, ⟨%f, HS⟩⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS]
  · iexists f; simp only [scM, owns_whole]; iexact HS
  iexact Hg

/-- and after the last it is forgotten again. -/
theorem PhiA_join (c : Dev nD) :
    iprop(scopedOthers (F := F) c ∗ (∃ d, owns (c : Thread nD τ) scM fullShare d) ∗ (∃ r, prngReg c r)) ⊢ (Pipeline.ΦA spec1 c : sProp 𝕄) := by
  unfold Pipeline.ΦA scopedOthers; rw [scopedRest1_eq]
  iintro ⟨⟨H0, H1, H2, H3, H4, H5, H6, H7⟩, ⟨%d, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d; simp only [scM, owns_whole]; iexact HS
  iexact Hg

/-- The region's invariant before position `n`: before the first point the scoped rest and the generator register at
    anything; afterwards the same with the accumulator at what the point before left. -/
def Phi1 (c : Dev nD) : (n : ℕ) → n ≤ cfg1.N → sProp 𝕄
  | 0, _ => Pipeline.ΦA spec1 c
  | n + 1, hn => iprop(scopedOthers (F := F) c ∗ owns (c : Thread nD τ) scM fullShare (accAt V c n hn) ∗ (∃ r, prngReg c r))

theorem Phi1_succ (c : Dev nD) (n : ℕ) (hn : n < cfg1.N) :
    Phi1 V c (n + 1) hn = iprop(scopedOthers (F := F) c ∗ owns (c : Thread nD τ) scM fullShare (accAt V c n hn) ∗ (∃ r, prngReg c r)) := rfl

theorem Phi1_pos (c : Dev nD) (n : ℕ) (h : n ≤ cfg1.N) (hz : n ≠ 0) :
    Phi1 V c n h = iprop(scopedOthers (F := F) c ∗ owns (c : Thread nD τ) scM fullShare (accAt V c (n - 1) (by omega)) ∗ (∃ r, prngReg c r)) := by
  cases n with
  | zero => exact absurd rfl hz
  | succ n => rfl

/-- At any position the invariant yields the accumulator at SOME contents beside the rest. -/
theorem Phi1_weak (c : Dev nD) (n : ℕ) (h : n ≤ cfg1.N) :
    Phi1 V c n h ⊢ iprop(scopedOthers (F := F) c ∗ (∃ d, owns (c : Thread nD τ) scM fullShare d) ∗ (∃ r, prngReg c r)) := by
  cases n with
  | zero => exact PhiA_split c
  | succ n =>
    rw [Phi1_succ]
    iintro ⟨Ho, HS, Hg⟩
    isplitl [Ho]; · iexact Ho
    isplitl [HS]; · iexists _; iexact HS
    iexact Hg

/-! ## The proof data -/

/-- The region's proof data on core `c`: the arrays as the region finds them; after the body at point `t` each
    input's buffer at its block and the output's at the accumulator's contents (consulted only at the odd points,
    where the output is stored and written back); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's parity. Even: the accumulator comes in at anything and goes out at
    `accAt t`; the output's buffer is handed back as found. Odd: the accumulator comes in at `accAt (t − 1)` and goes
    out, with the output's buffer, at `accAt t`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [Phi1_castSucc V c t]
  by_cases h0 : t.val % 2 = 0
  · have h1 : ¬ t.val % 2 = 1 := by omega
    rw [Dat.leavesExact_idle (dat1 V c) 2 t (idleAt1_2 t h0) (noFlush1_2 t h0), accAt_even V c t h0]
    iintro ⟨HΦ, Ho, ⟨%d0, H0⟩, ⟨%d1, H1⟩, ⟨%d2, H2⟩⟩
    ihave HΦ' := (Phi1_weak V c t.val (Nat.le_of_lt t.isLt)) $$ HΦ
    icases HΦ' with ⟨Hoth, ⟨%ds, HS⟩, Hg⟩
    iapply (sound_matmul_first c Set.univ (grid1.coords t) _ _ _ _ _ _ _ _ ((hcondReset t).mpr h0) (fun h => h1 ((hcondEmit t).mp h))
      (iblk1 V c 0 t) (iblk1 V c 1 t) _ _)
    isplitl [H0]; · iexact H0
    isplitl [H1]; · iexact H1
    isplitl [H2]; · iexact H2
    isplitl [HS]; · iexists _; iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexists _; iexact H2
  · have h1 : t.val % 2 = 1 := by omega
    have hz : t.val ≠ 0 := by omega
    rw [show (dat1 V c).leavesExact 2 t = owns (c : Thread nD τ) (st1_2 t) fullShare ((dat1 V c).after 2 t) from by
      unfold Dat.leavesExact; rw [liveAt1_2 t h1], after1_2]
    rw [Phi1_pos V c t.val _ hz, accAt_odd V c t h1]
    iintro ⟨⟨Hoth, HS, Hg⟩, Ho, ⟨%d0, H0⟩, ⟨%d1, H1⟩, ⟨%d2, H2⟩⟩
    iapply (sound_matmul_last c Set.univ (grid1.coords t) _ _ _ _ _ _ _ _ (fun h => h0 ((hcondReset t).mp h)) ((hcondEmit t).mpr h1)
      (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = Phi1 V c 0 (Nat.zero_le _) from rfl]
  exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact (Phi1_weak V c _ _).trans (PhiA_join c)

end Cert.Kernel.Hand

end
-- ==== Proof.Kernel.MainRun.lean ====
/-
  The whole run: @main is a host stretch (the scale vector laid out as a column), the dequantisation region, a host
  stretch (the activations reshaped to rows), the matrix-product region, and a last host stretch (the result reshaped
  back). The contents of the TensorCore's unscoped buffers at each of the six boundaries are a fold from the launch
  memory: a host stretch applies its operations; a region leaves its arrays at what its write-backs leave and every
  other buffer as it was. Every weakly fair execution terminates and ends with every unscoped buffer at the last
  boundary's contents (`run_all`); the frame claim reads the four arguments off that, the value claim the result.
-/
import proofs.«126354_j40896678593009_1_alg».proof.Proof.Kernel.QuantRegion
import proofs.«126354_j40896678593009_1_alg».proof.Proof.Kernel.MatmulRegion
import proofs.«126354_j40896678593009_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the dequantisation region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the dequantisation region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the matrix-product region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the matrix-product region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what the run ends with. -/
abbrev W5 : Dev nD → Valuation τ sig (Elt F) := fun c => StableHlo.after hostOps2 (W4 m ρ c)

/-! ## The arguments end as launched

No host operation writes an argument; the dequantisation region reads the base weights and the sign words through
input windows and bypasses the other two; the matrix-product region bypasses all four. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- Neither region prefetches a table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The dequantisation region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `W3`, left at `W4`. Its invariant takes the
    scoped rest and the generator register in before the first point and gives them back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have h : (Pipeline.ΦA spec1 c : sProp 𝕄)
        ⊢ iprop((∃ r, prngReg c r) ∗ Pipeline.ownSems0 (fun k : PEmpty => (k.elim : SemLoc sig)) c ∗ Pipeline.scopedRest spec1 c) := by
      rw [Pipeline.ownSems0_none]; unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Hand

end
-- ==== Proof.KernelIdeal.QuantRegion.lean ====
/-
  The first kernel region: the dequantisation pass. Its grid has 16 points; point `t` reads rows `256·t … 256·t + 255`
  of the base weights and of the sign words (all 4096 columns) and the same rows of the scale column, and writes the
  same rows of the bf16 weight array. The body is one whole-block store of one pure function of its three loads, so
  after the body the output's staging buffer holds that function of the three input blocks (`quantOut`); the three
  input buffers are left as found. Nothing is carried between points: the region's invariant is the scoped rest and
  the generator register, untouched.
-/
import proofs.«126354_j40896678593009_1_alg».proof.Proof.Gen.KernelIdeal.Launch
import proofs.«126354_j40896678593009_1_alg».proof.Proof.Gen.KernelIdeal.Skeleton
import proofs.«126354_j40896678593009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole [256, 4096] block and the whole [256, 1] column block, as the body's accesses name them. -/
abbrev rQ : Rect S256x4096 := Rect.unit (s := S256x4096) ![0, 0] S256x4096.size inb_S256x4096_S256x4096_0_0
abbrev rC : Rect S256x1 := Rect.unit (s := S256x1) ![0, 0] S256x1.size inb_S256x1_S256x1_0_0

/-- What the body leaves in the output's staging buffer: its one store, of the payload of the three loads. -/
def quantOut (xb : Vec F S256x4096 .f32) (xs : Vec F S256x4096 .i32) (xc : Vec F S256x1 .f32) : Vec F S256x4096 .bf16 :=
  View.canon [⟨rQ, k0_pay1 (View.ld xs rQ) (View.ld xb rQ) (View.ld xc rC)⟩]

/-- The one store is of the whole block, so it covers the buffer. -/
theorem quantCover (p0 : Vec F S256x4096 .bf16) (y : S256x4096.Idx) :
    ∃ pc ∈ ([⟨rQ, p0⟩] : List (View.Piece (Elt F) S256x4096 .bf16)), y ∈ pc.1.set :=
  View.cover_of_tiled [⟨rQ, p0⟩] S256x4096.size (by rfl) y

set_option maxHeartbeats 1000000 in
/-- The body on whole staging memrefs: the three inputs at read contents, the output at anything; it runs to the
    continuation holding the inputs as they were and the output at `quantOut` of them. -/
theorem sound_quant (c : Dev nD) (E : Set ℕ) (i : grid0.Coords)
    (arg1 : Memref sig .tc .vmem S256x4096 .f32) (harg1 : arg1.IsWhole) (arg2 : Memref sig .tc .vmem S256x4096 .i32) (harg2 : arg2.IsWhole)
    (arg3 : Memref sig .tc .vmem S256x1 .f32) (harg3 : arg3.IsWhole) (arg4 : Memref sig .tc .vmem S256x4096 .bf16) (harg4 : arg4.IsWhole)
    (xb : Vec F S256x4096 .f32) (xs : Vec F S256x4096 .i32) (xc : Vec F S256x1 .f32) (K : PUnit → sProp 𝕄) :
    iprop(owns (c : Thread nD τ) arg1 fullShare xb ∗ owns (c : Thread nD τ) arg2 fullShare xs ∗ owns (c : Thread nD τ) arg3 fullShare xc
        ∗ (∃ d, owns (c : Thread nD τ) arg4 fullShare d)
        ∗ (iprop(owns (c : Thread nD τ) arg1 fullShare xb ∗ owns (c : Thread nD τ) arg2 fullShare xs ∗ owns (c : Thread nD τ) arg3 fullShare xc
            ∗ owns (c : Thread nD τ) arg4 fullShare (quantOut xb xs xc)) -∗ K ⟨⟩))
      ⊢ wp frame (wpE (defs₀ (F := F)) Variants.none c none) E (cc0__quantize_kernel i arg1 harg1 arg2 harg2 arg3 harg3 arg4 harg4) K := by
  simp only [cc0__quantize_kernel_eq_skeleton]; unfold cc0__quantize_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (quantCover _)

/-- The region's proof data on core `c`: the arrays as the region finds them; after the body at point `t` each
    input's buffer at its block and the output's at `quantOut` of the three blocks; the invariant the scoped rest and
    the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => quantOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = quantOut (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_quant` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_quant c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.MatmulRegion.lean ====
/-
  The second kernel region: the matrix product, accumulated over the contracted axis in two halves. Its grid is
  16 × 4 × 2, the last axis `k` running fastest, so the point `t` has `k = t mod 2`. At every point the body reads a
  1024 × 2048 block of the activations and a 1024 × 2048 block of the bf16 weights. At `k = 0` it first clears a
  1024 × 1024 accumulator kept in scratch memory; at both points it adds to the accumulator the product of the two
  blocks along their second axes; at `k = 1` it copies the accumulator to the output block, which the pipeline writes
  back there and only there (at `k = 0` the output's staging buffer is left as found).

  So the accumulator, which lives across points, holds after an even point the product of that point's blocks added
  to zero, and after an odd point that point's product added to what the even point before left (`accAt`). The region's
  invariant carries it: before point `n + 1` the scratch buffer is owned at `accAt n`; before the first point, and for
  the other scoped buffers and the generator register throughout, nothing is said.
-/
import proofs.«126354_j40896678593009_1_alg».proof.Proof.Gen.KernelIdeal.Launch
import proofs.«126354_j40896678593009_1_alg».proof.Proof.Gen.KernelIdeal.Skeleton
import proofs.«126354_j40896678593009_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Whole-block accesses -/

/-- The offset of every access of this body: the block's origin. -/
theorem origin2 : (![0, 0] : Fin 2 → Nat) = fun _ => 0 := funext fun a => by fin_cases a <;> rfl

/-- Every index lies in the rectangle that starts at the origin and has the shape's own extents. -/
theorem mem_whole_rect {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A store of the whole block, made last, leaves its payload: whatever the earlier stores and the prior contents. -/
theorem read_last_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, mem_whole_rect h inb y⟩), View.canon_cons_unit_zero h inb]

/-! ## The body's two branch conditions, over the grid -/

/-- The accumulator is cleared where the last grid coordinate is 0, -/
abbrev condReset (i : grid1.Coords) : Prop := (Scalar.cmpi .ne (Scalar.extui (Scalar.cmpi .eq (BitVec.ofNat 32 (i 2).val) 0#32)) 0#32) = 1#1
/-- and copied out where it is 1. -/
abbrev condEmit (i : grid1.Coords) : Prop := k1_cond2 i = 1#1

/-- The last coordinate runs fastest: it is 0 at the even points, -/
theorem hcondReset : ∀ t : Fin cfg1.N, condReset (grid1.coords t) ↔ t.val % 2 = 0 :=
  (by decide +kernel : ∀ t : Fin grid1.N, condReset (grid1.coords t) ↔ t.val % 2 = 0)
/-- and 1 at the odd ones. -/
theorem hcondEmit : ∀ t : Fin cfg1.N, condEmit (grid1.coords t) ↔ t.val % 2 = 1 :=
  (by decide +kernel : ∀ t : Fin grid1.N, condEmit (grid1.coords t) ↔ t.val % 2 = 1)

/-- The two inputs are stored into nowhere and fetched everywhere: never idle. -/
theorem liveAt1_0 : ∀ t : Fin cfg1.N, cfg1.idle 0 (grid1.coords t) = false :=
  (by decide +kernel : ∀ t : Fin grid1.N, cfg1.idle 0 (grid1.coords t) = false)
theorem liveAt1_1 : ∀ t : Fin cfg1.N, cfg1.idle 1 (grid1.coords t) = false :=
  (by decide +kernel : ∀ t : Fin grid1.N, cfg1.idle 1 (grid1.coords t) = false)
/-- The output is idle, and not written back, at the even points; -/
theorem idleAt1_2 : ∀ t : Fin cfg1.N, t.val % 2 = 0 → cfg1.idle 2 (grid1.coords t) = true :=
  (by decide +kernel : ∀ t : Fin grid1.N, t.val % 2 = 0 → cfg1.idle 2 (grid1.coords t) = true)
theorem noFlush1_2 : ∀ t : Fin cfg1.N, t.val % 2 = 0 → (cfg1.win 2).flush t = false :=
  (by decide +kernel : ∀ t : Fin grid1.N, t.val % 2 = 0 → win1_2.flush t = false)
/-- live at the odd ones. -/
theorem liveAt1_2 : ∀ t : Fin cfg1.N, t.val % 2 = 1 → cfg1.idle 2 (grid1.coords t) = false :=
  (by decide +kernel : ∀ t : Fin grid1.N, t.val % 2 = 1 → cfg1.idle 2 (grid1.coords t) = false)

/-! ## The body's triple, in its two cases -/

set_option maxHeartbeats 1000000 in
/-- WHERE THE ACCUMULATOR IS CLEARED (and not copied out): the inputs and the output's buffer are left as found; the
    accumulator, found at anything, ends at the two blocks' product added to zero. -/
theorem sound_matmul_first (c : Dev nD) (E : Set ℕ) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hc0 : condReset i) (hc1 : ¬condEmit i)
    (xa : Vec F S1024x2048 .f32) (xw : Vec F S1024x2048 .bf16) (xo : Vec F S1024x1024 .f32) (K : PUnit → sProp 𝕄) :
    iprop(owns (c : Thread nD τ) arg3 fullShare xa ∗ owns (c : Thread nD τ) arg4 fullShare xw ∗ owns (c : Thread nD τ) arg5 fullShare xo
        ∗ (∃ d, owns (c : Thread nD τ) arg6 fullShare d)
        ∗ (iprop(owns (c : Thread nD τ) arg3 fullShare xa ∗ owns (c : Thread nD τ) arg4 fullShare xw ∗ owns (c : Thread nD τ) arg5 fullShare xo
            ∗ owns (c : Thread nD τ) arg6 fullShare (k1_pay2 xa xw (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  rw [read_last_whole_store _ _ origin2]
  simp only [View.readAt_eq_ld, View.ld_unit_zero (S := S1024x2048) origin2, View.ld_unit_zero (S := S1024x1024) origin2,
    View.readCov_unit_zero (S := S1024x1024) _ origin2]

set_option maxHeartbeats 1000000 in
/-- WHERE IT IS COPIED OUT (and not cleared): the inputs are left as found; the accumulator, found at `xs`, ends at
    the two blocks' product added to `xs`, and so does the output's buffer, found at anything. -/
theorem sound_matmul_last (c : Dev nD) (E : Set ℕ) (i : grid1.Coords)
    (arg3 : Memref sig .tc .vmem S1024x2048 .f32) (harg3 : arg3.IsWhole) (arg4 : Memref sig .tc .vmem S1024x2048 .bf16) (harg4 : arg4.IsWhole)
    (arg5 : Memref sig .tc .vmem S1024x1024 .f32) (harg5 : arg5.IsWhole) (arg6 : Memref sig .tc .vmem S1024x1024 .f32) (harg6 : arg6.IsWhole)
    (hc0 : ¬condReset i) (hc1 : condEmit i)
    (xa : Vec F S1024x2048 .f32) (xw : Vec F S1024x2048 .bf16) (xs : Vec F S1024x1024 .f32) (K : PUnit → sProp 𝕄) :
    iprop(owns (c : Thread nD τ) arg3 fullShare xa ∗ owns (c : Thread nD τ) arg4 fullShare xw ∗ (∃ d, owns (c : Thread nD τ) arg5 fullShare d)
        ∗ owns (c : Thread nD τ) arg6 fullShare xs
        ∗ (iprop(owns (c : Thread nD τ) arg3 fullShare xa ∗ owns (c : Thread nD τ) arg4 fullShare xw
            ∗ owns (c : Thread nD τ) arg5 fullShare (k1_pay2 xa xw xs)
            ∗ owns (c : Thread nD τ) arg6 fullShare (k1_pay2 xa xw xs)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_last_whole_store _ _ origin2]
    simp only [View.readAt_eq_ld, View.ld_unit_zero (S := S1024x2048) origin2, View.ld_unit_zero (S := S1024x1024) origin2,
    View.readCov_unit_zero (S := S1024x1024) _ origin2]
  iexists _; isplitr
  swap; · iexact H6
  ipureintro
  sl_unfold_run_names
  rw [read_last_whole_store _ _ origin2]
  simp only [View.readAt_eq_ld, View.ld_unit_zero (S := S1024x2048) origin2, View.ld_unit_zero (S := S1024x1024) origin2,
    View.readCov_unit_zero (S := S1024x1024) _ origin2]

/-! ## What the accumulator holds, point by point -/

/-- The scratch accumulator, a whole scoped buffer of the kernel's own. -/
abbrev scM : Memref sig .tc .vmem S1024x1024 .f32 := Memref.whole cc1_scratch0

/-- What the accumulator holds after point `n`: at an even point the point's product added to zero, at an odd one the
    point's product added to what the point before left. -/
def accAt (c : Dev nD) : (n : ℕ) → n < cfg1.N → Vec F S1024x1024 .f32
  | 0, h => k1_pay2 (iblk1 V c 0 ⟨0, h⟩) (iblk1 V c 1 ⟨0, h⟩) (k1_pay1 (F := F))
  | n + 1, h =>
    if (n + 1) % 2 = 0 then k1_pay2 (iblk1 V c 0 ⟨n + 1, h⟩) (iblk1 V c 1 ⟨n + 1, h⟩) (k1_pay1 (F := F))
    else k1_pay2 (iblk1 V c 0 ⟨n + 1, h⟩) (iblk1 V c 1 ⟨n + 1, h⟩) (accAt c n (Nat.lt_of_succ_lt h))

theorem accAt_even (c : Dev nD) (t : Fin cfg1.N) (h : t.val % 2 = 0) :
    accAt V c t.val t.isLt = k1_pay2 (iblk1 V c 0 t) (iblk1 V c 1 t) (k1_pay1 (F := F)) := by
  obtain ⟨n, hn⟩ := t
  cases n with
  | zero => rfl
  | succ n => exact if_pos h

theorem accAt_odd (c : Dev nD) (t : Fin cfg1.N) (h : t.val % 2 = 1) :
    accAt V c t.val t.isLt
      = k1_pay2 (iblk1 V c 0 t) (iblk1 V c 1 t) (accAt V c (t.val - 1) (Nat.lt_of_le_of_lt (Nat.sub_le _ _) t.isLt)) := by
  obtain ⟨n, hn⟩ := t
  cases n with
  | zero => exact absurd h (by simp)
  | succ n => exact if_neg (by dsimp only at h; omega)

/-! ## The invariant -/

/-- The core's scoped buffers that are neither a staging buffer of this region nor the accumulator: each whole at
    some contents. -/
def scopedOthers (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f))

/-- Before the first point nothing is known of the accumulator; -/
theorem PhiA_split (c : Dev nD) :
    (Pipeline.ΦA spec1 c : sProp 𝕄) ⊢ iprop(scopedOthers (F := F) c ∗ (∃ d, owns (c : Thread nD τ) scM fullShare d) ∗ (∃ r, prngReg c r)) := by
  unfold Pipeline.ΦA scopedOthers; rw [scopedRest1_eq]
  iintro ⟨⟨H0, H1, H2, H3, H4, H5, H6, H7, ⟨%f, HS⟩⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS]
  · iexists f; simp only [scM, owns_whole]; iexact HS
  iexact Hg

/-- and after the last it is forgotten again. -/
theorem PhiA_join (c : Dev nD) :
    iprop(scopedOthers (F := F) c ∗ (∃ d, owns (c : Thread nD τ) scM fullShare d) ∗ (∃ r, prngReg c r)) ⊢ (Pipeline.ΦA spec1 c : sProp 𝕄) := by
  unfold Pipeline.ΦA scopedOthers; rw [scopedRest1_eq]
  iintro ⟨⟨H0, H1, H2, H3, H4, H5, H6, H7⟩, ⟨%d, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d; simp only [scM, owns_whole]; iexact HS
  iexact Hg

/-- The region's invariant before position `n`: before the first point the scoped rest and the generator register at
    anything; afterwards the same with the accumulator at what the point before left. -/
def Phi1 (c : Dev nD) : (n : ℕ) → n ≤ cfg1.N → sProp 𝕄
  | 0, _ => Pipeline.ΦA spec1 c
  | n + 1, hn => iprop(scopedOthers (F := F) c ∗ owns (c : Thread nD τ) scM fullShare (accAt V c n hn) ∗ (∃ r, prngReg c r))

theorem Phi1_succ (c : Dev nD) (n : ℕ) (hn : n < cfg1.N) :
    Phi1 V c (n + 1) hn = iprop(scopedOthers (F := F) c ∗ owns (c : Thread nD τ) scM fullShare (accAt V c n hn) ∗ (∃ r, prngReg c r)) := rfl

theorem Phi1_pos (c : Dev nD) (n : ℕ) (h : n ≤ cfg1.N) (hz : n ≠ 0) :
    Phi1 V c n h = iprop(scopedOthers (F := F) c ∗ owns (c : Thread nD τ) scM fullShare (accAt V c (n - 1) (by omega)) ∗ (∃ r, prngReg c r)) := by
  cases n with
  | zero => exact absurd rfl hz
  | succ n => rfl

/-- At any position the invariant yields the accumulator at SOME contents beside the rest. -/
theorem Phi1_weak (c : Dev nD) (n : ℕ) (h : n ≤ cfg1.N) :
    Phi1 V c n h ⊢ iprop(scopedOthers (F := F) c ∗ (∃ d, owns (c : Thread nD τ) scM fullShare d) ∗ (∃ r, prngReg c r)) := by
  cases n with
  | zero => exact PhiA_split c
  | succ n =>
    rw [Phi1_succ]
    iintro ⟨Ho, HS, Hg⟩
    isplitl [Ho]; · iexact Ho
    isplitl [HS]; · iexists _; iexact HS
    iexact Hg

/-! ## The proof data -/

/-- The region's proof data on core `c`: the arrays as the region finds them; after the body at point `t` each
    input's buffer at its block and the output's at the accumulator's contents (consulted only at the odd points,
    where the output is stored and written back); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's parity. Even: the accumulator comes in at anything and goes out at
    `accAt t`; the output's buffer is handed back as found. Odd: the accumulator comes in at `accAt (t − 1)` and goes
    out, with the output's buffer, at `accAt t`. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [Phi1_castSucc V c t]
  by_cases h0 : t.val % 2 = 0
  · have h1 : ¬ t.val % 2 = 1 := by omega
    rw [Dat.leavesExact_idle (dat1 V c) 2 t (idleAt1_2 t h0) (noFlush1_2 t h0), accAt_even V c t h0]
    iintro ⟨HΦ, Ho, ⟨%d0, H0⟩, ⟨%d1, H1⟩, ⟨%d2, H2⟩⟩
    ihave HΦ' := (Phi1_weak V c t.val (Nat.le_of_lt t.isLt)) $$ HΦ
    icases HΦ' with ⟨Hoth, ⟨%ds, HS⟩, Hg⟩
    iapply (sound_matmul_first c Set.univ (grid1.coords t) _ _ _ _ _ _ _ _ ((hcondReset t).mpr h0) (fun h => h1 ((hcondEmit t).mp h))
      (iblk1 V c 0 t) (iblk1 V c 1 t) _ _)
    isplitl [H0]; · iexact H0
    isplitl [H1]; · iexact H1
    isplitl [H2]; · iexact H2
    isplitl [HS]; · iexists _; iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexists _; iexact H2
  · have h1 : t.val % 2 = 1 := by omega
    have hz : t.val ≠ 0 := by omega
    rw [show (dat1 V c).leavesExact 2 t = owns (c : Thread nD τ) (st1_2 t) fullShare ((dat1 V c).after 2 t) from by
      unfold Dat.leavesExact; rw [liveAt1_2 t h1], after1_2]
    rw [Phi1_pos V c t.val _ hz, accAt_odd V c t h1]
    iintro ⟨⟨Hoth, HS, Hg⟩, Ho, ⟨%d0, H0⟩, ⟨%d1, H1⟩, ⟨%d2, H2⟩⟩
    iapply (sound_matmul_last c Set.univ (grid1.coords t) _ _ _ _ _ _ _ _ (fun h => h0 ((hcondReset t).mp h)) ((hcondEmit t).mpr h1)
      (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = Phi1 V c 0 (Nat.zero_le _) from rfl]
  exact Idealize.SL.BI.Entails.refl _

/-- After the last point the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl]
  exact (Phi1_weak V c _ _).trans (PhiA_join c)

end Cert.KernelIdeal.Hand

end
-- ==== Proof.KernelIdeal.MainRun.lean ====
/-
  The whole run: @main is a host stretch (the scale vector laid out as a column), the dequantisation region, a host
  stretch (the activations reshaped to rows), the matrix-product region, and a last host stretch (the result reshaped
  back). The contents of the TensorCore's unscoped buffers at each of the six boundaries are a fold from the launch
  memory: a host stretch applies its operations; a region leaves its arrays at what its write-backs leave and every
  other buffer as it was. Every weakly fair execution terminates and ends with every unscoped buffer at the last
  boundary's contents (`run_all`); the frame claim reads the four arguments off that, the value claim the result.
-/
import proofs.«126354_j40896678593009_1_alg».proof.Proof.KernelIdeal.QuantRegion
import proofs.«126354_j40896678593009_1_alg».proof.Proof.KernelIdeal.MatmulRegion
import proofs.«126354_j40896678593009_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the dequantisation region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the dequantisation region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the matrix-product region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the matrix-product region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what the run ends with. -/
abbrev W5 : Dev nD → Valuation τ sig (Elt F) := fun c => StableHlo.after hostOps2 (W4 m ρ c)

/-! ## The arguments end as launched

No host operation writes an argument; the dequantisation region reads the base weights and the sign words through
input windows and bypasses the other two; the matrix-product region bypasses all four. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- Neither region prefetches a table. -/
abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The dequantisation region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `W3`, left at `W4`. Its invariant takes the
    scoped rest and the generator register in before the first point and gives them back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have h : (Pipeline.ΦA spec1 c : sProp 𝕄)
        ⊢ iprop((∃ r, prngReg c r) ∗ Pipeline.ownSems0 (fun k : PEmpty => (k.elim : SemLoc sig)) c ∗ Pipeline.scopedRest spec1 c) := by
      rw [Pipeline.ownSems0_none]; unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped TensorCore buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.Spec.lean ====
/-
  What both programs compute, as one function of the four argument arrays, over the extended reals.

  The weight of output row `o` at input column `k` is `base[o, k] + s(d[o, k]) · scale[o]`, where `d[o, k]` is a 32-bit
  word and `s` turns it into the sign it encodes. The output entry `(b, s, o)` is the sum over `k` of
  `x[b, s, k] · weight[o, k]`.

  The two programs differ only in how they read the sign off the word: one forms `2·d − 1` in 32-bit words and reads
  the result as a signed integer (`sgnWord`); the other reads the word as a signed integer and forms `2·d − 1` in the
  extended reals (`sgnReal`). The first wraps around and the second does not, so they agree exactly where `2·d − 1`
  does not overflow — in particular on the one-bit words `0` and `1`, where both are `−1` and `+1`.
-/
import Idealize.ShloMosaic.PureOps.Ideal
import Idealize.ShloMosaic.Lib.ValueIdx

noncomputable section

open scoped BigOperators

namespace Cert.SignDelta

open Idealize.ShloMosaic Idealize.ShloMosaic.ValueIdx

abbrev SX : Shape := ⟨3, ![8, 2048, 4096]⟩
abbrev SW : Shape := ⟨2, ![4096, 4096]⟩
abbrev SC : Shape := ⟨1, ![4096]⟩

/-- The sign formed in 32-bit words, then read as a signed integer. -/
def sgnWord (d : BitVec 32) : EReal := (((IntOp.subi (IntOp.muli d 2#32) 1#32).toInt : ℝ) : EReal)

/-- The word read as a signed integer, the sign then formed in the extended reals; `2` and `1` are the two float
    literals of the program that computes it this way. -/
def sgnReal (d : BitVec 32) : EReal :=
  ((d.toInt : ℝ) : EReal) * Ideal.ofBits .f32 0x40000000#32 - Ideal.ofBits .f32 0x3F800000#32

/-- One weight entry, for a reading `sg` of the sign word. -/
def weightAt (sg : BitVec 32 → EReal) (base : SW.Idx → EReal) (d : SW.Idx → BitVec 32) (scale : SC.Idx → EReal)
    (o k : Fin 4096) : EReal :=
  base (ix2 o k) + sg (d (ix2 o k)) * scale (ix1 o)

/-- One output entry: row `(b, s)` of the input against row `o` of the weights. -/
def linearEntry (sg : BitVec 32 → EReal) (x : SX.Idx → EReal) (base : SW.Idx → EReal) (d : SW.Idx → BitVec 32)
    (scale : SC.Idx → EReal) (b : Fin 8) (s : Fin 2048) (o : Fin 4096) : EReal :=
  ∑ k : Fin 4096, x (ix3 b s k) * weightAt sg base d scale o k

/-- The two readings of the sign agree wherever every word is one bit: so do the outputs. -/
theorem linearEntry_congr_sgn (sg sg' : BitVec 32 → EReal) (x : SX.Idx → EReal) (base : SW.Idx → EReal)
    (d : SW.Idx → BitVec 32) (scale : SC.Idx → EReal) (h : ∀ i, sg (d i) = sg' (d i)) (b : Fin 8) (s : Fin 2048) (o : Fin 4096) :
    linearEntry sg x base d scale b s o = linearEntry sg' x base d scale b s o := by
  unfold linearEntry weightAt
  exact Finset.sum_congr rfl fun k _ => by rw [h]

end Cert.SignDelta

end
-- ==== Proof.LibMergeRows.lean ====
/-
  A reshape that merges the two leading axes of a rank-3 array into one, or splits them again, read at an entry.

  Row-major order puts entry `(i, j, k)` of an `[a, b, c]` array at position `(i · b + j) · c + k`, and entry `(r, k)`
  of an `[m, c]` array at `r · c + k`; a reshape keeps positions. So with `r = i · b + j` the two entries are the same
  element, whichever way the reshape goes.
-/
import Idealize.ShloMosaic.Lib.ValueIdx
import Idealize.ShloMosaic.Lib.Pipeline.Value

noncomputable section

namespace Cert.MergeRows

open Idealize.ShloMosaic Idealize.ShloMosaic.ValueIdx

variable {α : Type}

/-- `[a, b, c]` reshaped to `[m, c]`: row `r = i · b + j`, column `k` reads entry `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[m, c]` reshaped to `[a, b, c]`: entry `(i, j, k)` reads row `r = i · b + j`, column `k`. -/
theorem shapeCast_mc_abc_apply {a b c m : ℕ} (y : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ y h (ix3 i j k) = y (ix2 r k) :=
  shapeCast_apply y h _ _ (by
    rw [Shape.rowMajor_val_two, Shape.rowMajor_val_three]
    show r.val * c + k.val = (i.val * b + j.val) * c + k.val
    rw [hr])

end Cert.MergeRows

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.QuantValue.lean ====
/-
  The first region's result, entry by entry. The region's grid has 16 points; point t covers rows 256·t … 256·t + 255
  (all 4096 columns) of the weight array, and stores there one pointwise function of the same rows of the base weights,
  of the sign words and of the scale column. So after the region, entry (o, k) of the weight array is
  base[o, k] + s(d[o, k]) · scale[o, 0], where s reads the word as a signed integer and forms 2·d − 1 in the extended
  reals.
-/
import proofs.«126354_j40896678593009_1_alg».proof.Proof.KernelIdeal.QuantRegion
import proofs.«126354_j40896678593009_1_alg».proof.Proof.Spec
import proofs.«126354_j40896678593009_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.SignDelta
open Idealize.ShloMosaic Idealize.ShloMosaic.TcCoe Idealize.ShloMosaic.ValueIdx Idealize.SL.Sem
open Idealize.ShloMosaic.Pipeline (Dat)

/-- The two zero offsets of a whole-block access, as a constant function. -/
theorem zero_off2 : (![0, 0] : Fin 2 → Nat) = fun _ => 0 := funext fun a => by fin_cases a <;> rfl

/-- The base weights, the sign words and the scale column as the region finds them, and the weight array as the
    region leaves it, each as a function of its literal index type. -/
abbrev baseAt (V : (c : Dev nD) → (b : Ref sig .tc) → Buf (Elt Ideal) ((c : Thread nD τ).loc b)) (c : Dev nD) : S4096x4096.Idx → EReal := V c main_arg1
abbrev signAt (V : (c : Dev nD) → (b : Ref sig .tc) → Buf (Elt Ideal) ((c : Thread nD τ).loc b)) (c : Dev nD) : S4096x4096.Idx → BitVec 32 := V c main_arg2
abbrev scaleColAt (V : (c : Dev nD) → (b : Ref sig .tc) → Buf (Elt Ideal) ((c : Thread nD τ).loc b)) (c : Dev nD) : S4096x1.Idx → EReal := V c main_v0
abbrev weightsOut (V : (c : Dev nD) → (b : Ref sig .tc) → Buf (Elt Ideal) ((c : Thread nD τ).loc b)) (c : Dev nD) : S4096x4096.Idx → EReal := (dat0 (F := Ideal) V c).arrAt 3 cfg0.N

/-- The weight array as one function of the three arrays the region reads: at row o and column k, the base weight plus
    the sign of the word times the scale of row o. -/
def quantW (base : S4096x4096.Idx → EReal) (d : S4096x4096.Idx → BitVec 32) (col : S4096x1.Idx → EReal) :
    S4096x4096.Idx → EReal :=
  fun i => base i + sgnReal (d i) * col (ix2 (n0 := 4096) (n1 := 1) (i 0) (0 : Fin 1))

/-- The stored block at an entry (p, q): the base block there, plus the sign of the word there times the column
    block's entry of row p. -/
theorem quantOut_apply (xb : Vec Ideal S256x4096 .f32) (xs : Vec Ideal S256x4096 .i32) (xc : Vec Ideal S256x1 .f32)
    (p : Fin 256) (q : Fin 4096) :
    (quantOut xb xs xc (ix2 p q) : EReal) = (xb (ix2 p q) : EReal) + sgnReal (xs (ix2 p q)) * (xc (ix2 p (0 : Fin 1)) : EReal) := by
  unfold quantOut
  rw [View.canon_unit_zero zero_off2]
  simp only [View.ld_unit_zero (S := S256x4096) zero_off2, View.ld_unit_zero (S := S256x1) zero_off2]
  unfold k0_pay1
  rw [truncf_apply, addf_apply, mulf_apply, subf_apply, mulf_apply, sitofp_apply, broadcast_apply, broadcast_apply,
    shapeCast_self, Cert.Gnn.broadcastTo_a1_ab_apply]
  rfl

/-- The printed index maps, decided once over the 16 points: every window's block at point t is block t along the rows
    and block 0 along the columns. -/
theorem quant_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The stored block against the whole-array function: if the three blocks at j hold the three arrays' entries at i
    (the column at row i 0), the stored block at j is the function at i. -/
theorem quantOut_eq_quantW (base : S4096x4096.Idx → EReal) (d : S4096x4096.Idx → BitVec 32) (col : S4096x1.Idx → EReal)
    (xb : Vec Ideal S256x4096 .f32) (xs : Vec Ideal S256x4096 .i32) (xc : Vec Ideal S256x1 .f32)
    (j : S256x4096.Idx) (i : S4096x4096.Idx)
    (hb : xb j = base i) (hs : xs j = d i)
    (hc : xc (ix2 (n0 := 256) (n1 := 1) (j 0) (0 : Fin 1)) = col (ix2 (n0 := 4096) (n1 := 1) (i 0) (0 : Fin 1))) :
    (quantOut xb xs xc j : EReal) = quantW base d col i := by
  obtain ⟨p, q, rfl⟩ : ∃ (p : Fin 256) (q : Fin 4096), j = ix2 p q := ⟨j 0, j 1, eq_ix2 j⟩
  rw [quantOut_apply, hb, hs]
  unfold quantW
  rw [← hc]

variable (V : (c : Dev nD) → (b : Ref sig .tc) → Buf (Elt Ideal) ((c : Thread nD τ).loc b))

/-- What point t writes back is block t of the whole-array function of the arrays as the region finds them. -/
theorem quant_flushed (c : Dev nD) (t : Fin cfg0.N) :
    (dat0 (F := Ideal) V c).flushed 3 t
      = ((cfg0.win 3).blk t).view.read (Elt Ideal) (quantW (V c main_arg1) (V c main_arg2) (V c main_v0)) := by
  show (cfg0.win 3).cut (grid0.coords t) ((dat0 (F := Ideal) V c).after 3 t) = _
  rw [after0_3]
  obtain ⟨e00, e01, e10, e11, e20, e21, e30, e31⟩ := quant_idx t
  funext j
  show quantOut (iblk0 V c 0 t) (iblk0 V c 1 t) (iblk0 V c 2 t) j
    = quantW (V c main_arg1) (V c main_arg2) (V c main_v0) (((cfg0.win 3).blk t).view.emb j)
  refine quantOut_eq_quantW _ _ _ _ _ _ j _ ?_ ?_ ?_
  · show V c main_arg1 (((cfg0.win 0).blk t).view.emb j) = V c main_arg1 (((cfg0.win 3).blk t).view.emb j)
    have h0 : ((cfg0.win 0).blk t).view.emb j = ((cfg0.win 3).blk t).view.emb j := by
      funext a; apply Fin.ext
      match a with
      | ⟨0, _⟩ => show win0_0.index t (0 : Fin 2) * 256 + 1 * (j 0).val = win0_3.index t (0 : Fin 2) * 256 + 1 * (j 0).val; omega
      | ⟨1, _⟩ => show win0_0.index t (1 : Fin 2) * 4096 + 1 * (j 1).val = win0_3.index t (1 : Fin 2) * 4096 + 1 * (j 1).val; omega
    rw [h0]
  · show V c main_arg2 (((cfg0.win 1).blk t).view.emb j) = V c main_arg2 (((cfg0.win 3).blk t).view.emb j)
    have h1 : ((cfg0.win 1).blk t).view.emb j = ((cfg0.win 3).blk t).view.emb j := by
      funext a; apply Fin.ext
      match a with
      | ⟨0, _⟩ => show win0_1.index t (0 : Fin 2) * 256 + 1 * (j 0).val = win0_3.index t (0 : Fin 2) * 256 + 1 * (j 0).val; omega
      | ⟨1, _⟩ => show win0_1.index t (1 : Fin 2) * 4096 + 1 * (j 1).val = win0_3.index t (1 : Fin 2) * 4096 + 1 * (j 1).val; omega
    rw [h1]
  · show V c main_v0 (((cfg0.win 2).blk t).view.emb (ix2 (n0 := 256) (n1 := 1) (j 0) (0 : Fin 1)))
      = V c main_v0 (ix2 (n0 := 4096) (n1 := 1) ((((cfg0.win 3).blk t).view.emb j) 0) (0 : Fin 1))
    have h2 : ((cfg0.win 2).blk t).view.emb (ix2 (n0 := 256) (n1 := 1) (j 0) (0 : Fin 1))
        = ix2 (n0 := 4096) (n1 := 1) ((((cfg0.win 3).blk t).view.emb j) 0) (0 : Fin 1) := by
      funext a; apply Fin.ext
      match a with
      | ⟨0, _⟩ => show win0_2.index t (0 : Fin 2) * 256 + 1 * (j 0).val = win0_3.index t (0 : Fin 2) * 256 + 1 * (j 0).val; omega
      | ⟨1, _⟩ => show win0_2.index t (1 : Fin 2) * 1 + 1 * 0 = 0; omega
    rw [h2]

/-- An index of the weight array is in point t's block iff each coordinate is in the block's range on its axis. -/
theorem quant_mem_blk (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v1).slice (win0_3.rect t)).set ↔ _
  rw [View.set_slice_whole, Rect.mem_set_unit]
  exact Iff.rfl

/-- Every index of the weight array is in some point's block: row r is in the block of point r / 256. -/
theorem quant_cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, e30, e31⟩ := quant_idx t
  refine ⟨t, flush0_3 t, ?_⟩
  rw [quant_mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- After the region, entry (o, k) of the weight array is the base weight there plus the sign of the word there times
    the scale of row o, the three arrays as the region finds them. -/
theorem quant_arr (c : Dev nD) (o k : Fin 4096) :
    weightsOut V c (ix2 o k)
      = baseAt V c (ix2 o k) + sgnReal (signAt V c (ix2 o k)) * scaleColAt V c (ix2 o (0 : Fin 1)) := by
  have h : weightsOut V c = quantW (baseAt V c) (signAt V c) (scaleColAt V c) :=
    (dat0 (F := Ideal) V c).arrAt_eq_of_cover 3 (quantW (baseAt V c) (signAt V c) (scaleColAt V c))
      (fun t _ => quant_flushed V c t) quant_cover
  rw [h]
  rfl

end Cert.KernelIdeal.Hand

end
-- ==== Proof.LibTransposedMatmul.lean ====
/-
  A matrix product that contracts BOTH operands on their last axis — an `M × K` array against an `N × K` array,
  the result `M × N` — read at one entry, at the ideal instance (floats are extended reals).

  Into a zero accumulator the entry `(r, c)` is the sum over `k` of `x[r, k] · w[c, k]`: the product of `x` with the
  transpose of `w`, without any transpose being formed. The dimension numbers contract axis 1 of each operand, the
  result's row is the left operand's row and the result's column is the right operand's ROW; re-indexing the
  one-axis contraction by its single coordinate gives the textbook sum.
-/
import Idealize.ShloMosaic.PureOps.Ideal.Laws
import Idealize.ShloMosaic.Lib.ValueIdx
import Idealize.ShloMosaic.Lib.Pipeline.Value

noncomputable section

open scoped BigOperators

namespace Cert.MatT

open Idealize.ShloMosaic Idealize.ShloMosaic.ValueIdx

/-- The left operand's row coordinate is the result's row coordinate. -/
theorem transposedRhs_lhs_row (M K N : Nat) (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's ROW coordinate is the result's column coordinate. -/
theorem transposedRhs_rhs_row (M K N : Nat) (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- A product contracting both operands' last axes, into a zero accumulator, read at an entry: the sum over the
    contracted index of the products of the two ROWS' entries. -/
theorem transposedRhs_matmul_apply {φ₁ φ₂ : FTy} (M K N : Nat) (prec : Option ContractPrecision)
    (x : FVec Ideal ⟨2, ![M, K]⟩ φ₁) (w : FVec Ideal ⟨2, ![N, K]⟩ φ₂) (j : (⟨2, ![M, N]⟩ : Shape).Idx) :
    FloatOps.matmul (DotDims.transposedRhs M K N) prec x w (constant ⟨2, ![M, N]⟩ .f32 0x00000000#32) j
      = ∑ k : Fin K, x (ix2 (j 0) k) * w (ix2 (j 1) k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposedRhs_lhs_row M K N _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposedRhs_rhs_row M K N _ _
      | ⟨1, _⟩ => exact ((DotDims.transposedRhs M K N).rhsIdx_val_of_single rfl _ _).trans hk)
  rw [el, er]
  rfl

end Cert.MatT

end
-- ==== Proof.LibPartialDot.lean ====
/-
  The product of an `R × C` array with the TRANSPOSE of an `N × C` array — entry `(r, e)` is the sum over the
  shared last axis `d` of `x[r, d] · w[e, d]` — built up along `d` in consecutive stretches, over the extended reals.

  `dotUpTo x w n r e` is the part of that sum with `d < n`. It starts at zero, a further stretch of `k` columns adds
  its own `k` products (`dotUpTo_add`: a sum over a range splits at any point, and addition of extended reals is
  associative, so no finiteness is needed), and at `n = C` it is the whole entry (`dotUpTo_full`). Coordinates are
  natural numbers, an entry outside the array reading zero, so that the arithmetic of block offsets is plain
  arithmetic of naturals.
-/
import Idealize.ShloMosaic.PureOps.Ideal.Laws
import Idealize.ShloMosaic.Lib.ValueIdx

noncomputable section

open scoped BigOperators

namespace Cert.Accum

open Idealize.ShloMosaic Idealize.ShloMosaic.ValueIdx

variable {R N C : ℕ}

/-- An entry of a rank-2 array at natural-number coordinates; zero outside the array. -/
def rd (x : (⟨2, ![R, C]⟩ : Shape).Idx → EReal) (r d : ℕ) : EReal :=
  if h : r < R ∧ d < C then x (ix2 ⟨r, h.1⟩ ⟨d, h.2⟩) else 0

/-- Inside the array it is the entry. -/
theorem rd_of_lt (x : (⟨2, ![R, C]⟩ : Shape).Idx → EReal) {r d : ℕ} (hr : r < R) (hd : d < C) :
    rd x r d = x (ix2 ⟨r, hr⟩ ⟨d, hd⟩) := dif_pos ⟨hr, hd⟩

/-- The entry `(r, e)` of `x · wᵀ` restricted to the columns `d < n`. -/
def dotUpTo (x : (⟨2, ![R, C]⟩ : Shape).Idx → EReal) (w : (⟨2, ![N, C]⟩ : Shape).Idx → EReal) (n r e : ℕ) : EReal :=
  ∑ d ∈ Finset.range n, rd x r d * rd w e d

/-- No columns: zero. -/
theorem dotUpTo_zero (x : (⟨2, ![R, C]⟩ : Shape).Idx → EReal) (w : (⟨2, ![N, C]⟩ : Shape).Idx → EReal) (r e : ℕ) :
    dotUpTo x w 0 r e = 0 := Finset.sum_range_zero _

/-- A further stretch of `k` columns adds its `k` products. -/
theorem dotUpTo_add (x : (⟨2, ![R, C]⟩ : Shape).Idx → EReal) (w : (⟨2, ![N, C]⟩ : Shape).Idx → EReal) (n k r e : ℕ) :
    dotUpTo x w (n + k) r e = dotUpTo x w n r e + ∑ d : Fin k, rd x r (n + d.val) * rd w e (n + d.val) := by
  unfold dotUpTo
  rw [Finset.sum_range_add]
  exact congrArg (_ + ·) (Finset.sum_range fun d => rd x r (n + d) * rd w e (n + d))

/-- One step of the accumulation in stretches of `k` columns: a value that is the product up to stretch `n`, plus
    stretch `n`'s products, is the product up to stretch `n + 1`. -/
theorem dotUpTo_step (x : (⟨2, ![R, C]⟩ : Shape).Idx → EReal) (w : (⟨2, ![N, C]⟩ : Shape).Idx → EReal) (k n r e : ℕ)
    (s : EReal) (blk : Fin k → EReal) (hs : s = dotUpTo x w (k * n) r e)
    (hb : ∀ d : Fin k, blk d = rd x r (k * n + d.val) * rd w e (k * n + d.val)) :
    s + ∑ d : Fin k, blk d = dotUpTo x w (k * (n + 1)) r e := by
  rw [Nat.mul_succ, dotUpTo_add, hs]
  exact congrArg (dotUpTo x w (k * n) r e + ·) (Finset.sum_congr rfl fun d _ => hb d)

/-- All `C` columns: the whole entry of `x · wᵀ`. -/
theorem dotUpTo_full (x : (⟨2, ![R, C]⟩ : Shape).Idx → EReal) (w : (⟨2, ![N, C]⟩ : Shape).Idx → EReal) {r e : ℕ}
    (hr : r < R) (he : e < N) :
    dotUpTo x w C r e = ∑ d : Fin C, x (ix2 ⟨r, hr⟩ d) * w (ix2 ⟨e, he⟩ d) := by
  unfold dotUpTo
  rw [Finset.sum_range]
  exact Finset.sum_congr rfl fun d _ => by rw [rd_of_lt x hr d.isLt, rd_of_lt w he d.isLt]

end Cert.Accum

end
-- ==== Proof.MatmulValue.lean ====
/-
  The matrix-product region's output array, entry by entry.

  The region walks a 16 × 4 × 2 grid, the last coordinate fastest. At the point (i, j, kk) it reads the 1024 × 2048 block
  (i, kk) of the activations and the 1024 × 2048 block (j, kk) of the weights, and adds to a 1024 × 1024 accumulator the
  product of the first with the transpose of the second; the accumulator is cleared before the point kk = 0 and written
  back, as block (i, j) of the output, after the point kk = 1. So after an even point the accumulator's entry (p, q) is
  the sum over the first 2048 columns of activations[1024·i + p, ·] · weights[1024·j + q, ·], after the odd point that
  follows it is the sum over all 4096 columns (a sum over a range splits at any point; addition of extended reals is
  associative and zero is neutral, so nothing is asked of the summands), and every entry (r, o) of the output lies in
  the block of exactly one odd point, ((r / 1024)·4 + o / 1024)·2 + 1. Hence
  output[r, o] = ∑ k, activations[r, k] · weights[o, k].
-/
import proofs.«126354_j40896678593009_1_alg».proof.Proof.KernelIdeal.MatmulRegion
import proofs.«126354_j40896678593009_1_alg».proof.Proof.LibTransposedMatmul
import proofs.«126354_j40896678593009_1_alg».proof.Proof.LibPartialDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The activations as the region finds them, -/
abbrev rowsAt (V : (c : Dev nD) → (b : Ref sig .tc) → Buf (Elt Ideal) ((c : Thread nD τ).loc b)) (c : Dev nD) :
    S16384x4096.Idx → EReal := V c main_v2
/-- the weights, -/
abbrev weightsAt (V : (c : Dev nD) → (b : Ref sig .tc) → Buf (Elt Ideal) ((c : Thread nD τ).loc b)) (c : Dev nD) :
    S4096x4096.Idx → EReal := V c main_v1
/-- and the output array after the region's last point. -/
abbrev productOut (V : (c : Dev nD) → (b : Ref sig .tc) → Buf (Elt Ideal) ((c : Thread nD τ).loc b)) (c : Dev nD) :
    S16384x4096.Idx → EReal := (dat1 (F := Ideal) V c).arrAt 2 cfg1.N

/-! ## The two payloads at an entry -/

/-- The printed dimension numbers are those of a product contracting both operands' second axes. -/
theorem dot_eq : dot_S1024x2048_S1024x2048_S1024x1024_1_1_0_0_n_n = DotDims.transposedRhs 1024 2048 1024 := rfl

/-- The block the accumulator is cleared to is zero at every entry. -/
theorem pay1_apply (p q : Fin 1024) : (k1_pay1 (F := Ideal) (ix2 p q) : EReal) = 0 := by
  unfold k1_pay1
  simp only [shapeCast_self]
  exact Ideal.ofBits_zero_f32

/-- One accumulation step at an entry: what was there plus the product of row p of the activations' block with
    row q of the weights' block. -/
theorem pay2_apply (xa : Vec Ideal S1024x2048 .f32) (xw : Vec Ideal S1024x2048 .bf16) (xs : Vec Ideal S1024x1024 .f32)
    (p q : Fin 1024) :
    (k1_pay2 xa xw xs (ix2 p q) : EReal)
      = (xs (ix2 p q) : EReal) + ∑ k : Fin 2048, (xa (ix2 p k) : EReal) * (xw (ix2 q k) : EReal) := by
  unfold k1_pay2
  simp only [shapeCast_self]
  rw [addf_apply, dot_eq]
  refine congrArg (xs (ix2 p q) + ·) ?_
  exact Cert.MatT.transposedRhs_matmul_apply (φ₁ := .bf16) (φ₂ := .bf16) 1024 2048 1024 none (truncf .bf16 xa bitsLt_bf16_f32) xw (ix2 p q)

/-! ## The grid's points and the blocks they read -/

/-- The grid has 128 points. -/
theorem t_lt (t : Fin cfg1.N) : t.val < 128 := lt_of_lt_of_eq t.isLt N_1

/-- The point t = (i·4 + j)·2 + k reads the activations' block (i, k), -/
theorem index1_0 : ∀ t : Fin cfg1.N, win1_0.index t 0 = t.val / 8 ∧ win1_0.index t 1 = t.val % 2 :=
  (by decide +kernel : ∀ t : Fin grid1.N, win1_0.index t 0 = t.val / 8 ∧ win1_0.index t 1 = t.val % 2)
/-- the weights' block (j, k), -/
theorem index1_1 : ∀ t : Fin cfg1.N, win1_1.index t 0 = t.val / 2 % 4 ∧ win1_1.index t 1 = t.val % 2 :=
  (by decide +kernel : ∀ t : Fin grid1.N, win1_1.index t 0 = t.val / 2 % 4 ∧ win1_1.index t 1 = t.val % 2)
/-- and writes the output's block (i, j). -/
theorem index1_2 : ∀ t : Fin cfg1.N, win1_2.index t 0 = t.val / 8 ∧ win1_2.index t 1 = t.val / 2 % 4 :=
  (by decide +kernel : ∀ t : Fin grid1.N, win1_2.index t 0 = t.val / 8 ∧ win1_2.index t 1 = t.val / 2 % 4)

/-- The activations' block at point t, -/
abbrev actBlk (c : Dev nD) (t : Fin cfg1.N) : Vec Ideal S1024x2048 .f32 := iblk1 V c 0 t
/-- and the weights'. -/
abbrev wgtBlk (c : Dev nD) (t : Fin cfg1.N) : Vec Ideal S1024x2048 .bf16 := iblk1 V c 1 t

/-- Entry (p, k) of the activations' block at point t is the array's entry (1024·i + p, 2048·kk + k). -/
theorem iblk1_0_apply (c : Dev nD) (t : Fin cfg1.N) (p : Fin 1024) (k : Fin 2048) :
    actBlk V c t (ix2 p k)
      = Cert.Accum.rd (rowsAt V c) (1024 * (t.val / 8) + p.val) (2048 * (t.val % 2) + k.val) := by
  have ht := t_lt t
  rw [Cert.Accum.rd_of_lt (rowsAt V c) (by omega) (by omega)]
  unfold actBlk iblk1
  rw [View.read_apply]
  show V c main_v2 _ = V c main_v2 _
  congr 1
  funext a
  apply Fin.ext
  match a with
  | ⟨0, _⟩ => show win1_0.index t 0 * 1024 + 1 * p.val = 1024 * (t.val / 8) + p.val; rw [(index1_0 t).1]; omega
  | ⟨1, _⟩ => show win1_0.index t 1 * 2048 + 1 * k.val = 2048 * (t.val % 2) + k.val; rw [(index1_0 t).2]; omega

/-- Entry (q, k) of the weights' block at point t is the array's entry (1024·j + q, 2048·kk + k). -/
theorem iblk1_1_apply (c : Dev nD) (t : Fin cfg1.N) (q : Fin 1024) (k : Fin 2048) :
    wgtBlk V c t (ix2 q k)
      = Cert.Accum.rd (weightsAt V c) (1024 * (t.val / 2 % 4) + q.val) (2048 * (t.val % 2) + k.val) := by
  have ht := t_lt t
  rw [Cert.Accum.rd_of_lt (weightsAt V c) (by omega) (by omega)]
  unfold wgtBlk iblk1
  rw [View.read_apply]
  show V c main_v1 _ = V c main_v1 _
  congr 1
  funext a
  apply Fin.ext
  match a with
  | ⟨0, _⟩ => show win1_1.index t 0 * 1024 + 1 * q.val = 1024 * (t.val / 2 % 4) + q.val; rw [(index1_1 t).1]; omega
  | ⟨1, _⟩ => show win1_1.index t 1 * 2048 + 1 * k.val = 2048 * (t.val % 2) + k.val; rw [(index1_1 t).2]; omega

/-! ## The accumulator after a point, at an entry -/

/-- After an even point the accumulator holds the product over the first half of the contracted axis. -/
theorem acc_even_apply (c : Dev nD) (t : Fin cfg1.N) (h : t.val % 2 = 0) (p q : Fin 1024) :
    (accAt V c t.val t.isLt : Vec Ideal S1024x1024 .f32) (ix2 p q)
      = Cert.Accum.dotUpTo (rowsAt V c) (weightsAt V c) (2048 * 1) (1024 * (t.val / 8) + p.val) (1024 * (t.val / 2 % 4) + q.val) := by
  have hacc : accAt V c t.val t.isLt = k1_pay2 (actBlk V c t) (wgtBlk V c t) (k1_pay1 (F := Ideal)) := accAt_even V c t h
  rw [hacc]
  refine (pay2_apply (actBlk V c t) (wgtBlk V c t) (k1_pay1 (F := Ideal)) p q).trans ?_
  refine Cert.Accum.dotUpTo_step (rowsAt V c) (weightsAt V c) 2048 0 _ _ _
    (fun d => actBlk V c t (ix2 p d) * wgtBlk V c t (ix2 q d)) ?_ ?_
  · exact (pay1_apply p q).trans (Cert.Accum.dotUpTo_zero (rowsAt V c) (weightsAt V c) _ _).symm
  · intro d
    show actBlk V c t (ix2 p d) * wgtBlk V c t (ix2 q d) = _
    rw [iblk1_0_apply, iblk1_1_apply, h]

/-- After an odd point it holds the product over the whole contracted axis. -/
theorem acc_odd_apply (c : Dev nD) (t : Fin cfg1.N) (h : t.val % 2 = 1) (p q : Fin 1024) :
    (accAt V c t.val t.isLt : Vec Ideal S1024x1024 .f32) (ix2 p q)
      = Cert.Accum.dotUpTo (rowsAt V c) (weightsAt V c) 4096 (1024 * (t.val / 8) + p.val) (1024 * (t.val / 2 % 4) + q.val) := by
  have hlt : t.val - 1 < cfg1.N := Nat.lt_of_le_of_lt (Nat.sub_le _ _) t.isLt
  have h' : (⟨t.val - 1, hlt⟩ : Fin cfg1.N).val % 2 = 0 := by show (t.val - 1) % 2 = 0; omega
  have e8 : (t.val - 1) / 8 = t.val / 8 := by omega
  have e2 : (t.val - 1) / 2 % 4 = t.val / 2 % 4 := by omega
  have e : (accAt V c (t.val - 1) hlt : Vec Ideal S1024x1024 .f32) (ix2 p q)
      = Cert.Accum.dotUpTo (rowsAt V c) (weightsAt V c) (2048 * 1) (1024 * ((t.val - 1) / 8) + p.val) (1024 * ((t.val - 1) / 2 % 4) + q.val) :=
    acc_even_apply V c ⟨t.val - 1, hlt⟩ h' p q
  rw [e8, e2] at e
  have hacc : accAt V c t.val t.isLt = k1_pay2 (actBlk V c t) (wgtBlk V c t) (accAt V c (t.val - 1) hlt) := accAt_odd V c t h
  rw [hacc]
  refine (pay2_apply (actBlk V c t) (wgtBlk V c t) (accAt V c (t.val - 1) hlt) p q).trans ?_
  show _ = Cert.Accum.dotUpTo (rowsAt V c) (weightsAt V c) (2048 * (1 + 1)) _ _
  refine Cert.Accum.dotUpTo_step (rowsAt V c) (weightsAt V c) 2048 1 _ _ _
    (fun d => actBlk V c t (ix2 p d) * wgtBlk V c t (ix2 q d)) e ?_
  intro d
  show actBlk V c t (ix2 p d) * wgtBlk V c t (ix2 q d) = _
  rw [iblk1_0_apply, iblk1_1_apply, h]

/-! ## The output array after the region -/

/-- Every entry of the output lies in the block of exactly the odd point that writes it back; that point is found from
    the entry's block coordinates. -/
theorem matmul_arr (V : (c : Dev nD) → (b : Ref sig .tc) → Buf (Elt Ideal) ((c : Thread nD τ).loc b)) (c : Dev nD)
    (r : Fin 16384) (o : Fin 4096) :
    productOut V c (ix2 r o) = ∑ k : Fin 4096, rowsAt V c (ix2 r k) * weightsAt V c (ix2 o k) := by
  have key := (dat1 (F := Ideal) V c).arrAt_forall_of_cover 2
    (fun (i : S16384x4096.Idx) (v : EReal) =>
      v = Cert.Accum.dotUpTo (rowsAt V c) (weightsAt V c) 4096 (i 0).val (i 1).val) ?_ ?_ (ix2 r o)
  · exact key.trans (Cert.Accum.dotUpTo_full (rowsAt V c) (weightsAt V c) r.isLt o.isLt)
  · -- what an odd point writes back, entry by entry
    intro t hf y
    have ht : t.val % 2 = 1 := (flush1_2 t).mp hf
    obtain ⟨p, q, rfl⟩ : ∃ (p q : Fin 1024), y = ix2 p q :=
      ⟨y ⟨0, Nat.zero_lt_two⟩, y ⟨1, Nat.one_lt_two⟩, eq_ix2 (n0 := 1024) (n1 := 1024) y⟩
    show (accAt V c t.val t.isLt : Vec Ideal S1024x1024 .f32) (ix2 p q)
      = Cert.Accum.dotUpTo (rowsAt V c) (weightsAt V c) 4096 (win1_2.index t 0 * 1024 + 1 * p.val) (win1_2.index t 1 * 1024 + 1 * q.val)
    rw [show win1_2.index t 0 * 1024 + 1 * p.val = 1024 * (t.val / 8) + p.val from by rw [(index1_2 t).1]; omega,
      show win1_2.index t 1 * 1024 + 1 * q.val = 1024 * (t.val / 2 % 4) + q.val from by rw [(index1_2 t).2]; omega]
    exact acc_odd_apply V c t ht p q
  · -- the cover
    intro (i : S16384x4096.Idx)
    have hi0 : (i 0).val < 16384 := (i 0).isLt
    have hi1 : (i 1).val < 4096 := (i 1).isLt
    obtain ⟨n, hn⟩ : ∃ n : ℕ, n = ((i 0).val / 1024 * 4 + (i 1).val / 1024) * 2 + 1 := ⟨_, rfl⟩
    have hlt : n < cfg1.N := lt_of_lt_of_eq (by omega : n < 128) N_1.symm
    refine ⟨⟨n, hlt⟩, (flush1_2 ⟨n, hlt⟩).mpr (by show n % 2 = 1; omega), ?_⟩
    show i ∈ ((View.whole main_v3).slice (win1_2.rect ⟨n, hlt⟩)).set
    rw [View.set_slice_whole, Rect.mem_set_unit]
    intro a
    match a with
    | ⟨0, _⟩ =>
      show win1_2.index ⟨n, hlt⟩ 0 * 1024 ≤ (i 0).val ∧ (i 0).val < win1_2.index ⟨n, hlt⟩ 0 * 1024 + 1024
      rw [(index1_2 ⟨n, hlt⟩).1]
      show n / 8 * 1024 ≤ (i 0).val ∧ (i 0).val < n / 8 * 1024 + 1024
      omega
    | ⟨1, _⟩ =>
      show win1_2.index ⟨n, hlt⟩ 1 * 1024 ≤ (i 1).val ∧ (i 1).val < win1_2.index ⟨n, hlt⟩ 1 * 1024 + 1024
      rw [(index1_2 ⟨n, hlt⟩).2]
      show n / 2 % 4 * 1024 ≤ (i 1).val ∧ (i 1).val < n / 2 % 4 * 1024 + 1024
      omega

end Cert.KernelIdeal.Hand

end
-- ==== Proof.KernelValue.lean ====
/-
  The kernel program's result, entry by entry, from its run: the last host stretch reshapes the matrix-product
  region's output [16384, 4096] back to [8, 2048, 4096] (row b·2048 + s is row (b, s)); that output's entry (r, o) is
  the sum over k of the activations' row r times the weights' row o; the activations' rows are the reshaped input; the
  weights are what the dequantisation region left, base + sign · scale with the scale vector read as a column.
-/
import proofs.«126354_j40896678593009_1_alg».proof.Proof.KernelIdeal.MainRun
import proofs.«126354_j40896678593009_1_alg».proof.Proof.Spec
import proofs.«126354_j40896678593009_1_alg».proof.Proof.LibMergeRows
import proofs.«126354_j40896678593009_1_alg».proof.Proof.QuantValue
import proofs.«126354_j40896678593009_1_alg».proof.Proof.MatmulValue
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.SignDelta
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the two regions find in the buffers they read -/

/-- The dequantisation region finds the base weights and the sign words as launched, -/
theorem V1_main_arg1 (c : Dev nD) : V1 m ρ c main_arg1 = m ((c : Thread nD τ).loc main_arg1) :=
  StableHlo.after_of_writes_sub hostOps0 _ hostOps0_writes (by decide)
theorem V1_main_arg2 (c : Dev nD) : V1 m ρ c main_arg2 = m ((c : Thread nD τ).loc main_arg2) :=
  StableHlo.after_of_writes_sub hostOps0 _ hostOps0_writes (by decide)
/-- and the scale vector laid out as a column. -/
theorem V1_main_v0 (c : Dev nD) :
    V1 m ρ c main_v0 = broadcastInDim S4096x1 ![0] bcast_S4096_S4096x1_0 (m ((c : Thread nD τ).loc main_arg3)) := by
  show StableHlo.after hostOps0 (W0 m ρ c) (Proc.devRef .tc main_v0) = _
  after_results

/-- The matrix-product region finds the activations reshaped to 16384 rows, -/
theorem V3_main_v2 (c : Dev nD) :
    V3 m ρ c main_v2 = shapeCast S16384x4096 (m ((c : Thread nD τ).loc main_arg0)) shapeCasts_S8x2048x4096_S16384x4096 := by
  have e : W2 m ρ c (Proc.devRef .tc main_arg0) = m ((c : Thread nD τ).loc main_arg0) :=
    (W2_of_ne m ρ c main_arg0 (by decide)).trans (StableHlo.after_of_writes_sub hostOps0 _ hostOps0_writes (by decide))
  show StableHlo.after hostOps1 (W2 m ρ c) (Proc.devRef .tc main_v2) = _
  after_results
  rw [e]
  rfl
/-- and the weights as the dequantisation region left them. -/
theorem V3_main_v1 (c : Dev nD) : V3 m ρ c main_v1 = (dat0 (V1 m ρ) c).arrAt 3 cfg0.N :=
  (StableHlo.after_of_writes_sub hostOps1 _ hostOps1_writes (by decide)).trans (W2_arr m ρ c 3)

/-- The result is the matrix-product region's output reshaped back to three axes. -/
theorem W5_main_v4 (c : Dev nD) :
    W5 m ρ c (Proc.devRef .tc main_v4)
      = shapeCast S8x2048x4096 ((dat1 (V3 m ρ) c).arrAt 2 cfg1.N) shapeCasts_S16384x4096_S8x2048x4096 := by
  have e : W4 m ρ c (Proc.devRef .tc main_v3) = (dat1 (V3 m ρ) c).arrAt 2 cfg1.N := W4_arr m ρ c 2
  show StableHlo.after hostOps2 (W4 m ρ c) (Proc.devRef .tc main_v4) = _
  after_results
  rw [e]
  rfl

/-! ## The result, entry by entry -/

/-- The four argument arrays as launched, at their literal types. -/
abbrev xIn (c : Dev nD) : SX.Idx → EReal := m ((c : Thread nD τ).loc main_arg0)
abbrev baseIn (c : Dev nD) : SW.Idx → EReal := m ((c : Thread nD τ).loc main_arg1)
abbrev signIn (c : Dev nD) : SW.Idx → BitVec 32 := m ((c : Thread nD τ).loc main_arg2)
abbrev scaleIn (c : Dev nD) : SC.Idx → EReal := m ((c : Thread nD τ).loc main_arg3)

/-- The scale column at row `o` is the scale vector's entry `o`. -/
theorem scale_column (x : S4096.Idx → EReal) (o : Fin 4096) :
    broadcastInDim S4096x1 ![0] bcast_S4096_S4096x1_0 x (ix2 o (0 : Fin 1)) = x (ix1 o) :=
  broadcastInDim_apply _ bcast_S4096_S4096x1_0 x _ _ (fun a => match a with
    | ⟨0, _⟩ => by show o.val = if (4096 : Nat) = 1 then 0 else o.val; rw [if_neg (by decide)])

/-- What the dequantisation region reads, in terms of the launch arrays. -/
theorem baseAt_entry (c : Dev nD) : baseAt (V1 m ρ) c = baseIn m c := V1_main_arg1 m ρ c
theorem signAt_entry (c : Dev nD) : signAt (V1 m ρ) c = signIn m c := V1_main_arg2 m ρ c
theorem scaleColAt_entry (c : Dev nD) (o : Fin 4096) : scaleColAt (V1 m ρ) c (ix2 o (0 : Fin 1)) = scaleIn m c (ix1 o) := by
  show V1 m ρ c main_v0 _ = _
  rw [V1_main_v0]
  exact scale_column _ o

/-- Row `r = b · 2048 + s` of the reshaped arrays is row `(b, s)` of the three-axis ones. -/
theorem merged_row (b : Fin 8) (s : Fin 2048) : b.val * 2048 + s.val < 16384 := by
  have := b.isLt; have := s.isLt; omega

/-- THE KERNEL'S RESULT: entry `(b, s, o)` is the sum over `k` of the activation `(b, s, k)` times the weight
    `base[o, k] + sign(d[o, k]) · scale[o]`, the sign read off the word in the extended reals. -/
theorem result_entry (c : Dev nD) (b : Fin 8) (s : Fin 2048) (o : Fin 4096) :
    W5 m ρ c (Proc.devRef .tc main_v4) (ix3 b s o)
      = linearEntry sgnReal (xIn m c) (baseIn m c) (signIn m c) (scaleIn m c) b s o := by
  rw [W5_main_v4]
  rw [Cert.MergeRows.shapeCast_mc_abc_apply _ shapeCasts_S16384x4096_S8x2048x4096 b s o ⟨b.val * 2048 + s.val, merged_row b s⟩ rfl]
  refine (matmul_arr (V3 m ρ) c ⟨b.val * 2048 + s.val, merged_row b s⟩ o).trans ?_
  unfold linearEntry weightAt
  refine Finset.sum_congr rfl fun k _ => ?_
  have hx : rowsAt (V3 m ρ) c (ix2 ⟨b.val * 2048 + s.val, merged_row b s⟩ k) = xIn m c (ix3 b s k) := by
    show V3 m ρ c main_v2 _ = _
    rw [V3_main_v2]
    exact Cert.MergeRows.shapeCast_abc_mc_apply _ shapeCasts_S8x2048x4096_S16384x4096 b s k ⟨b.val * 2048 + s.val, merged_row b s⟩ rfl
  have hw : weightsAt (V3 m ρ) c (ix2 o k)
      = baseIn m c (ix2 o k) + sgnReal (signIn m c (ix2 o k)) * scaleIn m c (ix1 o) := by
    show V3 m ρ c main_v1 _ = _
    rw [V3_main_v1]
    refine (quant_arr (V1 m ρ) c o k).trans ?_
    rw [baseAt_entry, signAt_entry, scaleColAt_entry]
  rw [hx, hw]

end Cert.KernelIdeal.Hand

end
-- ==== Proof.RefIsSpec.lean ====
/-
  The reference program's output entry is the specification's entry, with the sign read off the word in 32-bit
  arithmetic: entry (b, s, o) of the contraction is the sum over k of x[b, s, k] times the weight
  base[o, k] + (2·d[o, k] − 1 formed in words, read signed) · scale[o].
-/
import proofs.«126354_j40896678593009_1_alg».proof.Proof.Spec
import proofs.«126354_j40896678593009_1_alg».proof.Proof.Gen.ReferenceIdeal.Read
import Idealize.ShloMosaic.PureOps.Ideal
import Idealize.ShloMosaic.Lib.ValueIdx

noncomputable section

open scoped BigOperators

namespace Cert.SignDelta

open Idealize.ShloMosaic Idealize.ShloMosaic.ValueIdx Cert.ReferenceIdeal Cert.ReferenceIdeal.Read

variable [Cert.ReferenceIdeal.Facts]

/-- The left operand of the contraction at output index (b, s, o), term k, is read at (b, s, k). -/
theorem lidx_ix3 (b : Fin 8) (s : Fin 2048) (o k : Fin 4096) :
    lidx_main_v9 (ix3 b s o) k = ix3 b s k :=
  funext fun a => Fin.ext (by
    match a with
    | ⟨0, _⟩ => rfl
    | ⟨1, _⟩ => rfl
    | ⟨2, _⟩ => rfl)

/-- The right operand of the contraction at output index (b, s, o), term k, is read at (o, k). -/
theorem ridx_ix3 (b : Fin 8) (s : Fin 2048) (o k : Fin 4096) :
    ridx_main_v9 (ix3 b s o) k = ix2 o k :=
  funext fun a => Fin.ext (by
    match a with
    | ⟨0, _⟩ => rfl
    | ⟨1, _⟩ => rfl)

/-- The scale vector broadcast along the rows of the weight matrix, read at (o, k), is scale[o]. -/
theorem scale_idx (o k : Fin 4096) : idx_main_v5 (idx_main_v6 (ix2 o k)) = ix1 o :=
  funext fun a => Fin.ext (by
    match a with
    | ⟨0, _⟩ => rfl)

/-- One weight entry of the reference program is the specification's, the sign formed in words. -/
theorem ref_weight (x1 : (⟨Cert.ReferenceIdeal.S4096x4096, .f32⟩ : BufTy).Contents (Elt Ideal))
    (x2 : (⟨Cert.ReferenceIdeal.S4096x4096, .i32⟩ : BufTy).Contents (Elt Ideal))
    (x3 : (⟨Cert.ReferenceIdeal.S4096, .f32⟩ : BufTy).Contents (Elt Ideal)) (o k : Fin 4096) :
    val_main_v8 (F := Ideal) x1 x2 x3 (ix2 o k) = weightAt sgnWord x1 x2 x3 o k := by
  rw [val_main_v8_apply, val_main_v7_apply, val_main_v6_apply, val_main_v5_apply, val_main_v4_apply, val_main_v3_apply,
    val_main_v2_apply, val_main_v1_apply, val_main_v0_apply, val_main_c_apply, val_main_c_0_apply, scale_idx]
  unfold weightAt sgnWord
  simp only [Ideal.addf_def, Ideal.mulf_def]
  rfl

theorem ref_entry (x0 : (⟨Cert.ReferenceIdeal.S8x2048x4096, .f32⟩ : BufTy).Contents (Elt Ideal))
    (x1 : (⟨Cert.ReferenceIdeal.S4096x4096, .f32⟩ : BufTy).Contents (Elt Ideal))
    (x2 : (⟨Cert.ReferenceIdeal.S4096x4096, .i32⟩ : BufTy).Contents (Elt Ideal))
    (x3 : (⟨Cert.ReferenceIdeal.S4096, .f32⟩ : BufTy).Contents (Elt Ideal)) (b : Fin 8) (s : Fin 2048) (o : Fin 4096) :
    Cert.ReferenceIdeal.Read.val_main_v9 (F := Ideal) x0 x1 x2 x3 (ValueIdx.ix3 b s o) = linearEntry sgnWord x0 x1 x2 x3 b s o := by
  rw [val_main_v9_apply]
  unfold linearEntry
  refine Finset.sum_congr rfl fun k _ => ?_
  rw [lidx_ix3, ridx_ix3, ref_weight]

end Cert.SignDelta

end
-- ==== Proof.PreSigns.lean ====
/-
  What the precondition says of the sign words, and why it is enough: the printed predicate's last conjunct is the
  conjunction, over every entry of the 32-bit array, of "the entry is 0 or the entry is 1"; on those two words the
  sign formed in 32-bit arithmetic and the sign formed in the extended reals are the same number, −1 and +1.
-/
import proofs.«126354_j40896678593009_1_alg».proof.Proof.Spec
import proofs.«126354_j40896678593009_1_alg».proof.Defs
import Idealize.ShloMosaic.PureOps.Ideal
import Idealize.ShloMosaic.Lib.ValueIdx
import Idealize.ShloMosaic.Lib.Affine
import Idealize.ShloMosaic.Lib.ReduceAll
import Idealize.ShloMosaic.Lib.StableHlo.Predicate

noncomputable section

namespace Cert.SignDelta

open Idealize.ShloMosaic Idealize.ShloMosaic.ValueIdx

/-- The float literal with exponent field 128 and zero fraction denotes the real 2. -/
theorem ofBits_two : Ideal.ofBits .f32 0x40000000#32 = ((2 : ℝ) : EReal) := by
  simp [Ideal.ofBits, Ideal.ieee, -EReal.coe_mul]; norm_num

/-- The float literal with exponent field 127 and zero fraction denotes the real 1. -/
theorem ofBits_one : Ideal.ofBits .f32 0x3F800000#32 = ((1 : ℝ) : EReal) := by
  simp [Ideal.ofBits, Ideal.ieee, -EReal.coe_mul]; norm_num

/-- On the words 0 and 1 no step of 2·d − 1 overflows: both readings give −1 and +1. -/
theorem sgn_one_bit (d : BitVec 32) (h : d = 0#32 ∨ d = 1#32) : sgnReal d = sgnWord d := by
  rcases h with rfl | rfl
  · have hw : (IntOp.subi (IntOp.muli 0#32 2#32) 1#32).toInt = -1 := by decide
    have hr : (0#32 : BitVec 32).toInt = 0 := by decide
    unfold sgnReal sgnWord
    rw [ofBits_two, ofBits_one, hw, hr, ← EReal.coe_mul, ← EReal.coe_sub]
    norm_num
  · have hw : (IntOp.subi (IntOp.muli 1#32 2#32) 1#32).toInt = 1 := by decide
    have hr : (1#32 : BitVec 32).toInt = 1 := by decide
    unfold sgnReal sgnWord
    rw [ofBits_two, ofBits_one, hw, hr, ← EReal.coe_mul, ← EReal.coe_sub]
    norm_num

/-- A disjunction of two bits that is set has one of them set. -/
theorem ori_bits (c d : BitVec 1) (h : IntOp.ori c d = 1#1) : c = 1#1 ∨ d = 1#1 := by
  revert c d; decide

theorem signs_one_bit [Cert.Pre_finite_inputs.Facts]
    (a0 : FVec Ideal Cert.Pre_finite_inputs.S8x2048x4096 .f32) (a1 : FVec Ideal Cert.Pre_finite_inputs.S4096x4096 .f32)
    (a2 : IVec Cert.Pre_finite_inputs.S4096x4096 32) (a3 : FVec Ideal Cert.Pre_finite_inputs.S4096 .f32)
    (h : Cert.Pre_finite_inputs.fn (F := Ideal) a0 a1 a2 a3 = (fun _ => 1#1)) : ∀ i, a2 i = 0#32 ∨ a2 i = 1#32 := by
  intro i
  have h0 := congrFun h ValueIdx.ix0
  dsimp only [Cert.Pre_finite_inputs.fn, Cert.Pre_finite_inputs.fn_part1] at h0
  have hall := (IntOp.andi_eq_one.1 h0).2
  haveI : Subsingleton Cert.Pre_finite_inputs.S_.Idx := ⟨fun a b => funext fun d => d.elim0⟩
  have hi := Host.reduce_andi_all _ _ _ _ _ hall i
  rcases ori_bits _ _ hi with hc | hc
  · left
    have := StableHlo.Predicate.cmpi_eq_iff.1 hc
    rw [this]
    rfl
  · right
    have := StableHlo.Predicate.cmpi_eq_iff.1 hc
    rw [this]
    rfl

end Cert.SignDelta

end
-- ==== Proof.lean ====
/-
  The certificate of the one-bit sign-delta linear layer.

  Both programs compute, for activations `x` of shape [8, 2048, 4096], base weights `base` and sign words `d` of
  shape [4096, 4096] and a scale vector `scale` of length 4096,
      out[b, s, o] = Σₖ x[b, s, k] · (base[o, k] + sign(d[o, k]) · scale[o]).
  The kernel program does it in two passes: a dequantisation pass that forms the weights, then a matrix product
  whose contracted axis is cut in two halves accumulated in scratch memory. The reference forms the weights and takes
  one product. Over the extended reals the two halves are a regrouping of one sum, and addition there is associative
  and commutative with 0 neutral, so no finiteness of the inputs is used.

  The one real difference is the sign: the kernel reads the word as a signed integer and forms `2·d − 1` in the
  extended reals; the reference forms `2·d − 1` in 32-bit words, which wrap, and reads the result. They agree on the
  one-bit words 0 and 1 — which is what the precondition's last conjunct says of every entry of `d`.

  The frames: each kernel region's body is run once (the second in its two cases, clearing or copying out the
  accumulator), the regions and the host stretches between them are chained from the launch memory, and every
  unscoped buffer is read at the end; the four arguments are never written. The same text serves the word-level
  program and the idealized one. `preserves` has nothing to state: the idealization rewrote no operation.
-/
import proofs.«126354_j40896678593009_1_alg».proof.Defs
import proofs.«126354_j40896678593009_1_alg».proof.Proof.Gen.Kernel
import proofs.«126354_j40896678593009_1_alg».proof.Proof.Gen.KernelIdeal
import proofs.«126354_j40896678593009_1_alg».proof.Proof.Gen.ReferenceIdeal
import proofs.«126354_j40896678593009_1_alg».proof.Proof.Gen.Pre_finite_inputs
import proofs.«126354_j40896678593009_1_alg».proof.Proof.Gen.ReferenceIdeal.Run
import proofs.«126354_j40896678593009_1_alg».proof.Proof.Gen.ReferenceIdeal.Read
import proofs.«126354_j40896678593009_1_alg».proof.Proof.Kernel.MainRun
import proofs.«126354_j40896678593009_1_alg».proof.Proof.KernelIdeal.MainRun
import proofs.«126354_j40896678593009_1_alg».proof.Proof.KernelValue
import proofs.«126354_j40896678593009_1_alg».proof.Proof.RefIsSpec
import proofs.«126354_j40896678593009_1_alg».proof.Proof.PreSigns
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.SignDelta

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame m ρ
theorem frame_ki : Cert.frame_KernelIdeal := fun m ρ _ => Cert.KernelIdeal.Hand.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Every index of the result is a triple of coordinates. -/
theorem result_index (j : Cert.KernelIdeal.S8x2048x4096.Idx) : ∃ (b : Fin 8) (s : Fin 2048) (o : Fin 4096), j = ix3 b s o :=
  ⟨j 0, j 1, j 2, eq_ix3 j⟩

/-- From memories that agree on the arguments, under the precondition, the two programs end with the same result:
    entry by entry both are the sum above, the kernel's with the sign read in the extended reals, the reference's with
    the sign read in words, equal because every sign word is one bit. -/
theorem algebraic : Cert.algebraic_KernelIdeal_ReferenceIdeal := by
  intro m ρ m' ρ' hpre hagree
  refine ⟨fun c => Cert.KernelIdeal.Hand.W5 m ρ c (Proc.devRef .tc Cert.KernelIdeal.main_v4), ?_, ?_⟩
  · exact (θ_run Cert.KernelIdeal.defs _ _).mono (fun r h c =>
      ⟨h c _ (Cert.KernelIdeal.Hand.mem_uc Cert.KernelIdeal.main_v4 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, (hagree c).1, (hagree c).2.1, (hagree c).2.2.1, (hagree c).2.2.2]
    funext j
    obtain ⟨b, s, o, rfl⟩ := result_index j
    have hbit := signs_one_bit _ _ _ _ (hpre c)
    rw [ref_entry]
    exact ((Cert.KernelIdeal.Hand.result_entry m ρ c b s o).trans
      (linearEntry_congr_sgn sgnReal sgnWord _ _ _ _ (fun i => sgn_one_bit _ (hbit i)) b s o)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
